-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S2x131072 : Shape := ⟨2, ![2, 131072]⟩
abbrev S128x256 : Shape := ⟨2, ![128, 256]⟩
abbrev S256 : Shape := ⟨1, ![256]⟩
abbrev S256x256 : Shape := ⟨2, ![256, 256]⟩
abbrev S512x1 : Shape := ⟨2, ![512, 1]⟩
abbrev S1 : Shape := ⟨1, ![1]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S512x1 .f32) (main_arg13 : FVec F S1 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S512x1 .f32 := Host.absf main_arg12
  let main_cst_20 : FVec F S_ .f32 := constant S_ .f32 0x7F800000#32
  let main_v55 : FVec F S512x1 .f32 := broadcastInDim S512x1 ![] bcast_S_S512x1 main_cst_20
  let main_v56 : IVec S512x1 1 := cmpf .olt main_v54 main_v55
  let main_c_21 : IVec S_ 1 := constantI S_ 1 1#1
  let main_v57 : IVec S_ 1 := (fun x v => Host.reduce IntOp.andi x v reducesTo_S512x1_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg8 : FVec F S256x256 .f32) (main_arg9 : FVec F S256 .f32) (main_arg10 : FVec F S256x256 .f32) (main_arg11 : FVec F S256 .f32) (main_arg12 : FVec F S512x1 .f32) (main_arg13 : FVec F S1 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg10
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg12 main_arg13 main_v48 main_v49 main_v50

def fn_part1 {F : FTy → Type} [FloatOps F] (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S512x1 .f32) (main_arg13 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S8192x128 .f32) (main_arg1 : IVec S2x131072 32) (main_arg2 : FVec F S128x256 .f32) (main_arg3 : FVec F S256 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S512x1 .f32) (main_arg13 : FVec F S1 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_arg10 main_arg11 main_arg12 main_arg13 main_v13 main_v16
-- ==== Kernel.lean ====
abbrev S8192x128 : Shape := ⟨2, ![8192, 128]⟩
abbrev S2x131072 : Shape := ⟨2, ![2, 131072]⟩
abbrev S128x256 : Shape := ⟨2, ![128, 256]⟩
abbrev S256 : Shape := ⟨1, ![256]⟩
abbrev S256x256 : Shape := ⟨2, ![256, 256]⟩
abbrev S512x1 : Shape := ⟨2, ![512, 1]⟩
abbrev S1 : Shape := ⟨1, ![1]⟩
abbrev S1x131072 : Shape := ⟨2, ![1, 131072]⟩
abbrev S131072 : Shape := ⟨1, ![131072]⟩
abbrev S_ : Shape := ⟨0, ![]⟩
abbrev S131072x1 : Shape := ⟨2, ![131072, 1]⟩
abbrev S131072x128 : Shape := ⟨2, ![131072, 128]⟩
abbrev S1x256 : Shape := ⟨2, ![1, 256]⟩
abbrev S8192x256 : Shape := ⟨2, ![8192, 256]⟩
abbrev S1024x128 : Shape := ⟨2, ![1024, 128]⟩
abbrev S1024x256 : Shape := ⟨2, ![1024, 256]⟩
abbrev S131072x256 : Shape := ⟨2, ![131072, 256]⟩
abbrev S256x8192 : Shape := ⟨2, ![256, 8192]⟩
abbrev S256x1 : Shape := ⟨2, ![256, 1]⟩
abbrev S1x1 : Shape := ⟨2, ![1, 1]⟩
abbrev S8192x8192 : Shape := ⟨2, ![8192, 8192]⟩
abbrev S256x1024 : Shape := ⟨2, ![256, 1024]⟩
abbrev S1024x1024 : Shape := ⟨2, ![1024, 1024]⟩
abbrev S1024x1 : Shape := ⟨2, ![1024, 1]⟩
abbrev S1x1024 : Shape := ⟨2, ![1, 1024]⟩

abbrev nBuf : Space → Nat
  | .hbm => 57
  | .vmem => 31
  | .smem => 0
  | _ => 0

abbrev bufTy : (tb : Table) → Fin (tcTables nBuf tb) → BufTy
  | .hbm, ⟨0, _⟩ => ⟨S8192x128, .f32⟩
  | .hbm, ⟨1, _⟩ => ⟨S2x131072, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S512x1, .f32⟩
  | .hbm, ⟨13, _⟩ => ⟨S1, .f32⟩
  | .hbm, ⟨14, _⟩ => ⟨S1x131072, .i32⟩
  | .hbm, ⟨15, _⟩ => ⟨S131072, .i32⟩
  | .hbm, ⟨16, _⟩ => ⟨S1x131072, .i32⟩
  | .hbm, ⟨17, _⟩ => ⟨S131072, .i32⟩
  | .hbm, ⟨18, _⟩ => ⟨S_, .i32⟩
  | .hbm, ⟨19, _⟩ => ⟨S131072, .i32⟩
  | .hbm, ⟨20, _⟩ => ⟨S131072, .i1⟩
  | .hbm, ⟨21, _⟩ => ⟨S_, .i32⟩
  | .hbm, ⟨22, _⟩ => ⟨S131072, .i32⟩
  | .hbm, ⟨23, _⟩ => ⟨S131072, .i32⟩
  | .hbm, ⟨24, _⟩ => ⟨S131072, .i32⟩
  | .hbm, ⟨25, _⟩ => ⟨S131072x1, .i32⟩
  | .hbm, ⟨26, _⟩ => ⟨S131072x128, .f32⟩
  | .hbm, ⟨27, _⟩ => ⟨S_, .f32⟩
  | .hbm, ⟨28, _⟩ => ⟨S8192x128, .f32⟩
  | .hbm, ⟨29, _⟩ => ⟨S131072x1, .i32⟩
  | .hbm, ⟨30, _⟩ => ⟨S8192x128, .f32⟩
  | .hbm, ⟨31, _⟩ => ⟨S1x256, .f32⟩
  | .hbm, ⟨32, _⟩ => ⟨S1x256, .f32⟩
  | .hbm, ⟨33, _⟩ => ⟨S8192x256, .f32⟩
  | .hbm, ⟨34, _⟩ => ⟨S_, .i32⟩
  | .hbm, ⟨35, _⟩ => ⟨S131072, .i32⟩
  | .hbm, ⟨36, _⟩ => ⟨S131072, .i1⟩
  | .hbm, ⟨37, _⟩ => ⟨S_, .i32⟩
  | .hbm, ⟨38, _⟩ => ⟨S131072, .i32⟩
  | .hbm, ⟨39, _⟩ => ⟨S131072, .i32⟩
  | .hbm, ⟨40, _⟩ => ⟨S131072, .i32⟩
  | .hbm, ⟨41, _⟩ => ⟨S131072x1, .i32⟩
  | .hbm, ⟨42, _⟩ => ⟨S131072x256, .f32⟩
  | .hbm, ⟨43, _⟩ => ⟨S_, .f32⟩
  | .hbm, ⟨44, _⟩ => ⟨S8192x256, .f32⟩
  | .hbm, ⟨45, _⟩ => ⟨S131072x1, .i32⟩
  | .hbm, ⟨46, _⟩ => ⟨S8192x256, .f32⟩
  | .hbm, ⟨47, _⟩ => ⟨S1x256, .f32⟩
  | .hbm, ⟨48, _⟩ => ⟨S1x256, .f32⟩
  | .hbm, ⟨49, _⟩ => ⟨S1x256, .f32⟩
  | .hbm, ⟨50, _⟩ => ⟨S8192x256, .f32⟩
  | .hbm, ⟨51, _⟩ => ⟨S256x8192, .f32⟩
  | .hbm, ⟨52, _⟩ => ⟨S256x1, .f32⟩
  | .hbm, ⟨53, _⟩ => ⟨S256x1, .f32⟩
  | .hbm, ⟨54, _⟩ => ⟨S1x256, .f32⟩
  | .hbm, ⟨55, _⟩ => ⟨S1x1, .f32⟩
  | .hbm, ⟨56, _⟩ => ⟨S8192x8192, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S128x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S256x256, .f32⟩
  | .local _ .vmem, ⟨15, _⟩ => ⟨S1x256, .f32⟩
  | .local _ .vmem, ⟨16, _⟩ => ⟨S256x256, .f32⟩
  | .local _ .vmem, ⟨17, _⟩ => ⟨S1x256, .f32⟩
  | .local _ .vmem, ⟨18, _⟩ => ⟨S256x256, .f32⟩
  | .local _ .vmem, ⟨19, _⟩ => ⟨S1x256, .f32⟩
  | .local _ .vmem, ⟨20, _⟩ => ⟨S1024x256, .f32⟩
  | .local _ .vmem, ⟨21, _⟩ => ⟨S1024x256, .f32⟩
  | .local _ .vmem, ⟨22, _⟩ => ⟨S1024x256, .f32⟩
  | .local _ .vmem, ⟨23, _⟩ => ⟨S1024x256, .f32⟩
  | .local _ .vmem, ⟨24, _⟩ => ⟨S256x1024, .f32⟩
  | .local _ .vmem, ⟨25, _⟩ => ⟨S256x1024, .f32⟩
  | .local _ .vmem, ⟨26, _⟩ => ⟨S256x1, .f32⟩
  | .local _ .vmem, ⟨27, _⟩ => ⟨S1x256, .f32⟩
  | .local _ .vmem, ⟨28, _⟩ => ⟨S1x1, .f32⟩
  | .local _ .vmem, ⟨29, _⟩ => ⟨S1024x1024, .f32⟩
  | .local _ .vmem, ⟨30, _⟩ => ⟨S1024x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_1 : Ref sig .tc := ⟨.hbm, 34, rfl⟩
abbrev main_v17 : Ref sig .tc := ⟨.hbm, 35, rfl⟩
abbrev main_v18 : Ref sig .tc := ⟨.hbm, 36, rfl⟩
abbrev main_c_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_3 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg8_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg5_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem8_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem5_1 : DmaSem sig := 30

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S1024x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S256x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S256x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1024x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

class Facts₀ : Prop where
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S131072 : S_.BroadcastsInDim S131072 (![] : Fin 0 → Fin S131072.rank)
  bcast_S131072_S131072x1_0 : S131072.BroadcastsInDim S131072x1 (![0] : Fin 1 → Fin S131072x1.rank)
  bcast_S_S8192x128 : S_.BroadcastsInDim S8192x128 (![] : Fin 0 → Fin S8192x128.rank)
  shapeCasts_S256_S1x256 : S256.ShapeCasts S1x256
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x256_S256x256_0_0 : ∀ a, (![0, 0] : Fin 2 → Nat) a + S256x256.size a ≤ S256x256.size a
  h_S256x256 : 0 < S256x256.numel
  inb_S1024x256_S1024x256_0_0 : ∀ a, (![0, 0] : Fin 2 → Nat) a + S1024x256.size a ≤ S1024x256.size a
  h_S1024x256 : 0 < S1024x256.numel
  bcast_S_S8192x256 : S_.BroadcastsInDim S8192x256 (![] : Fin 0 → Fin S8192x256.rank)
  shapeCasts_S1024x256_S1024x256 : S1024x256.ShapeCasts S1024x256
  transposes_S8192x256_S256x8192_1_0 : S8192x256.Transposes [1, 0] S256x8192
  slices_S512x1_S256x1_0_0 : S512x1.Slices ![0, 0] S256x1
  slices_S512x1_S256x1_256_0 : S512x1.Slices ![256, 0] S256x1
  transposes_S256x1_S1x256_1_0 : S256x1.Transposes [1, 0] S1x256
  shapeCasts_S1_S1x1 : S1.ShapeCasts S1x1
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  gather_S8192x128_S131072x1_S131072x128_1_0_n_n_0_1_1128_wf : GatherDims.WF S8192x128 S131072x1 S131072x128 [1] [0] [] [0] [] 1 ![1, 128]
  scatter_S8192x128_S131072x1_S131072x128_1_0_0_1_wf : ScatterDims.WF S8192x128 S131072x1 S131072x128 [1] [0] [0] 1
  dot_S1024x128_S128x256_S1024x256_1_0_0_1_n_n_wf : DotDims.WF S1024x128 S128x256 S1024x256 [1] [0] [0] [1] [] []
  dot_S1024x256_S256x256_S1024x256_1_0_0_1_n_n_wf : DotDims.WF S1024x256 S256x256 S1024x256 [1] [0] [0] [1] [] []
  gather_S8192x256_S131072x1_S131072x256_1_0_n_n_0_1_1256_wf : GatherDims.WF S8192x256 S131072x1 S131072x256 [1] [0] [] [0] [] 1 ![1, 256]
  scatter_S8192x256_S131072x1_S131072x256_1_0_0_1_wf : ScatterDims.WF S8192x256 S131072x1 S131072x256 [1] [0] [0] 1
  dot_S1024x256_S256x1_S1024x1_1_0_0_1_n_n_wf : DotDims.WF S1024x256 S256x1 S1024x1 [1] [0] [0] [1] [] []
  dot_S1x256_S256x1024_S1x1024_1_0_0_1_n_n_wf : DotDims.WF S1x256 S256x1024 S1x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x256.size a ≤ S8192x256.size a
  hwx0_6 : ∀ i : grid0.Coords, EltTy.bits .f32 = 32 ∨ (Rect.block (s := S8192x256) S1024x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .f32 = 32 ∨ (Rect.block (s := S8192x256) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S8192x256.size a
  hwx1_1 : ∀ i : grid1.Coords, EltTy.bits .f32 = 32 ∨ (Rect.block (s := S8192x256) S1024x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x256.size a ≤ S256x256.size a
  hwx1_6 : ∀ i : grid1.Coords, EltTy.bits .f32 = 32 ∨ (Rect.block (s := S256x256) S256x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1024x256.size a ≤ S8192x256.size a
  hwx1_8 : ∀ i : grid1.Coords, EltTy.bits .f32 = 32 ∨ (Rect.block (s := S8192x256) S1024x256.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x256.size a ≤ S8192x256.size a
  hwx2_0 : ∀ i : grid2.Coords, EltTy.bits .f32 = 32 ∨ (Rect.block (s := S8192x256) S1024x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x1024.size a ≤ S256x8192.size a
  hwx2_1 : ∀ i : grid2.Coords, EltTy.bits .f32 = 32 ∨ (Rect.block (s := S256x8192) S256x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x1.size a ≤ S256x1.size a
  hwx2_2 : ∀ i : grid2.Coords, EltTy.bits .f32 = 32 ∨ (Rect.block (s := S256x1) S256x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x1024.size a ≤ S8192x8192.size a
  hwx2_5 : ∀ i : grid2.Coords, EltTy.bits .f32 = 32 ∨ (Rect.block (s := S8192x8192) S1024x1024.size (cc2_transform_5 i) (hinb2_5 i)).WholeWords (EltTy.packing .f32)

variable [Facts₀]

def gather_S8192x128_S131072x1_S131072x128_1_0_n_n_0_1_1128 : GatherDims S8192x128 S131072x1 S131072x128 where
  offsetDims := [1]
  collapsedSliceDims := [0]
  operandBatchingDims := []
  startIndicesBatchingDims := []
  startIndexMap := [0]
  indexVectorDim := 1
  sliceSizes := ![1, 128]
  wf := gather_S8192x128_S131072x1_S131072x128_1_0_n_n_0_1_1128_wf
def scatter_S8192x128_S131072x1_S131072x128_1_0_0_1 : ScatterDims S8192x128 S131072x1 S131072x128 where
  updateWindowDims := [1]
  insertedWindowDims := [0]
  scatterDimsToOperandDims := [0]
  indexVectorDim := 1
  wf := scatter_S8192x128_S131072x1_S131072x128_1_0_0_1_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def gather_S8192x256_S131072x1_S131072x256_1_0_n_n_0_1_1256 : GatherDims S8192x256 S131072x1 S131072x256 where
  offsetDims := [1]
  collapsedSliceDims := [0]
  operandBatchingDims := []
  startIndicesBatchingDims := []
  startIndexMap := [0]
  indexVectorDim := 1
  sliceSizes := ![1, 256]
  wf := gather_S8192x256_S131072x1_S131072x256_1_0_n_n_0_1_1256_wf
def scatter_S8192x256_S131072x1_S131072x256_1_0_0_1 : ScatterDims S8192x256 S131072x1 S131072x256 where
  updateWindowDims := [1]
  insertedWindowDims := [0]
  scatterDimsToOperandDims := [0]
  indexVectorDim := 1
  wf := scatter_S8192x256_S131072x1_S131072x256_1_0_0_1_wf
def dot_S1024x256_S256x1_S1024x1_1_0_0_1_n_n : DotDims S1024x256 S256x1 S1024x1 where
  lhsContracting := [1]
  rhsContracting := [0]
  lhsNonContracting := [0]
  rhsNonContracting := [1]
  lhsBatch := []
  rhsBatch := []
  wf := dot_S1024x256_S256x1_S1024x1_1_0_0_1_n_n_wf
def dot_S1x256_S256x1024_S1x1024_1_0_0_1_n_n : DotDims S1x256 S256x1024 S1x1024 where
  lhsContracting := [1]
  rhsContracting := [0]
  lhsNonContracting := [0]
  rhsNonContracting := [1]
  lhsBatch := []
  rhsBatch := []
  wf := dot_S1x256_S256x1024_S1x1024_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1024x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S256x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v29) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v30) S1024x256.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v30) S1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S256x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v32) S256x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v34) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v35) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v36) S1024x1024.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S8192x128 : Shape := ⟨2, ![8192, 128]⟩
abbrev S2x131072 : Shape := ⟨2, ![2, 131072]⟩
abbrev S128x256 : Shape := ⟨2, ![128, 256]⟩
abbrev S256 : Shape := ⟨1, ![256]⟩
abbrev S256x256 : Shape := ⟨2, ![256, 256]⟩
abbrev S512x1 : Shape := ⟨2, ![512, 1]⟩
abbrev S1 : Shape := ⟨1, ![1]⟩
abbrev S1x131072 : Shape := ⟨2, ![1, 131072]⟩
abbrev S131072 : Shape := ⟨1, ![131072]⟩
abbrev S_ : Shape := ⟨0, ![]⟩
abbrev S131072x1 : Shape := ⟨2, ![131072, 1]⟩
abbrev S131072x128 : Shape := ⟨2, ![131072, 128]⟩
abbrev S8192x256 : Shape := ⟨2, ![8192, 256]⟩
abbrev S1x256 : Shape := ⟨2, ![1, 256]⟩
abbrev S131072x256 : Shape := ⟨2, ![131072, 256]⟩
abbrev S256x1 : Shape := ⟨2, ![256, 1]⟩
abbrev S8192x1 : Shape := ⟨2, ![8192, 1]⟩
abbrev S1x8192 : Shape := ⟨2, ![1, 8192]⟩
abbrev S8192x8192 : Shape := ⟨2, ![8192, 8192]⟩

abbrev nBuf : Space → Nat
  | .hbm => 89
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S2x131072, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S512x1, .f32⟩
  | .hbm, ⟨13, _⟩ => ⟨S1, .f32⟩
  | .hbm, ⟨14, _⟩ => ⟨S1x131072, .i32⟩
  | .hbm, ⟨15, _⟩ => ⟨S131072, .i32⟩
  | .hbm, ⟨16, _⟩ => ⟨S1x131072, .i32⟩
  | .hbm, ⟨17, _⟩ => ⟨S131072, .i32⟩
  | .hbm, ⟨18, _⟩ => ⟨S_, .i32⟩
  | .hbm, ⟨19, _⟩ => ⟨S131072, .i32⟩
  | .hbm, ⟨20, _⟩ => ⟨S131072, .i1⟩
  | .hbm, ⟨21, _⟩ => ⟨S_, .i32⟩
  | .hbm, ⟨22, _⟩ => ⟨S131072, .i32⟩
  | .hbm, ⟨23, _⟩ => ⟨S131072, .i32⟩
  | .hbm, ⟨24, _⟩ => ⟨S131072, .i32⟩
  | .hbm, ⟨25, _⟩ => ⟨S131072x1, .i32⟩
  | .hbm, ⟨26, _⟩ => ⟨S131072x128, .f32⟩
  | .hbm, ⟨27, _⟩ => ⟨S_, .f32⟩
  | .hbm, ⟨28, _⟩ => ⟨S8192x128, .f32⟩
  | .hbm, ⟨29, _⟩ => ⟨S131072x1, .i32⟩
  | .hbm, ⟨30, _⟩ => ⟨S8192x128, .f32⟩
  | .hbm, ⟨31, _⟩ => ⟨S8192x128, .f32⟩
  | .hbm, ⟨32, _⟩ => ⟨S8192x256, .f32⟩
  | .hbm, ⟨33, _⟩ => ⟨S1x256, .f32⟩
  | .hbm, ⟨34, _⟩ => ⟨S8192x256, .f32⟩
  | .hbm, ⟨35, _⟩ => ⟨S8192x256, .f32⟩
  | .hbm, ⟨36, _⟩ => ⟨S_, .f32⟩
  | .hbm, ⟨37, _⟩ => ⟨S8192x256, .f32⟩
  | .hbm, ⟨38, _⟩ => ⟨S8192x256, .f32⟩
  | .hbm, ⟨39, _⟩ => ⟨S8192x256, .f32⟩
  | .hbm, ⟨40, _⟩ => ⟨S1x256, .f32⟩
  | .hbm, ⟨41, _⟩ => ⟨S8192x256, .f32⟩
  | .hbm, ⟨42, _⟩ => ⟨S8192x256, .f32⟩
  | .hbm, ⟨43, _⟩ => ⟨S_, .f32⟩
  | .hbm, ⟨44, _⟩ => ⟨S8192x256, .f32⟩
  | .hbm, ⟨45, _⟩ => ⟨S8192x256, .f32⟩
  | .hbm, ⟨46, _⟩ => ⟨S_, .i32⟩
  | .hbm, ⟨47, _⟩ => ⟨S131072, .i32⟩
  | .hbm, ⟨48, _⟩ => ⟨S131072, .i1⟩
  | .hbm, ⟨49, _⟩ => ⟨S_, .i32⟩
  | .hbm, ⟨50, _⟩ => ⟨S131072, .i32⟩
  | .hbm, ⟨51, _⟩ => ⟨S131072, .i32⟩
  | .hbm, ⟨52, _⟩ => ⟨S131072, .i32⟩
  | .hbm, ⟨53, _⟩ => ⟨S131072x1, .i32⟩
  | .hbm, ⟨54, _⟩ => ⟨S131072x256, .f32⟩
  | .hbm, ⟨55, _⟩ => ⟨S_, .f32⟩
  | .hbm, ⟨56, _⟩ => ⟨S8192x256, .f32⟩
  | .hbm, ⟨57, _⟩ => ⟨S131072x1, .i32⟩
  | .hbm, ⟨58, _⟩ => ⟨S8192x256, .f32⟩
  | .hbm, ⟨59, _⟩ => ⟨S8192x256, .f32⟩
  | .hbm, ⟨60, _⟩ => ⟨S8192x256, .f32⟩
  | .hbm, ⟨61, _⟩ => ⟨S1x256, .f32⟩
  | .hbm, ⟨62, _⟩ => ⟨S8192x256, .f32⟩
  | .hbm, ⟨63, _⟩ => ⟨S8192x256, .f32⟩
  | .hbm, ⟨64, _⟩ => ⟨S_, .f32⟩
  | .hbm, ⟨65, _⟩ => ⟨S8192x256, .f32⟩
  | .hbm, ⟨66, _⟩ => ⟨S8192x256, .f32⟩
  | .hbm, ⟨67, _⟩ => ⟨S8192x256, .f32⟩
  | .hbm, ⟨68, _⟩ => ⟨S1x256, .f32⟩
  | .hbm, ⟨69, _⟩ => ⟨S8192x256, .f32⟩
  | .hbm, ⟨70, _⟩ => ⟨S8192x256, .f32⟩
  | .hbm, ⟨71, _⟩ => ⟨S_, .f32⟩
  | .hbm, ⟨72, _⟩ => ⟨S8192x256, .f32⟩
  | .hbm, ⟨73, _⟩ => ⟨S8192x256, .f32⟩
  | .hbm, ⟨74, _⟩ => ⟨S8192x256, .f32⟩
  | .hbm, ⟨75, _⟩ => ⟨S1x256, .f32⟩
  | .hbm, ⟨76, _⟩ => ⟨S8192x256, .f32⟩
  | .hbm, ⟨77, _⟩ => ⟨S8192x256, .f32⟩
  | .hbm, ⟨78, _⟩ => ⟨S256x1, .f32⟩
  | .hbm, ⟨79, _⟩ => ⟨S8192x1, .f32⟩
  | .hbm, ⟨80, _⟩ => ⟨S256x1, .f32⟩
  | .hbm, ⟨81, _⟩ => ⟨S8192x1, .f32⟩
  | .hbm, ⟨82, _⟩ => ⟨S1x8192, .f32⟩
  | .hbm, ⟨83, _⟩ => ⟨S8192x8192, .f32⟩
  | .hbm, ⟨84, _⟩ => ⟨S8192x8192, .f32⟩
  | .hbm, ⟨85, _⟩ => ⟨S8192x8192, .f32⟩
  | .hbm, ⟨86, _⟩ => ⟨S_, .f32⟩
  | .hbm, ⟨87, _⟩ => ⟨S8192x8192, .f32⟩
  | .hbm, ⟨88, _⟩ => ⟨S8192x8192, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_call0_cst : Ref sig .tc := ⟨.hbm, 36, rfl⟩
abbrev main_call0_v0 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_call1_cst : Ref sig .tc := ⟨.hbm, 43, rfl⟩
abbrev main_call1_v0 : Ref sig .tc := ⟨.hbm, 44, rfl⟩
abbrev main_v24 : Ref sig .tc := ⟨.hbm, 45, rfl⟩
abbrev main_c_1 : Ref sig .tc := ⟨.hbm, 46, rfl⟩
abbrev main_v25 : Ref sig .tc := ⟨.hbm, 47, rfl⟩
abbrev main_v26 : Ref sig .tc := ⟨.hbm, 48, rfl⟩
abbrev main_c_2 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_3 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_call2_cst : Ref sig .tc := ⟨.hbm, 64, rfl⟩
abbrev main_call2_v0 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_call3_cst : Ref sig .tc := ⟨.hbm, 71, rfl⟩
abbrev main_call3_v0 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩

abbrev nD : Nat := 1
abbrev τ : Topo := Topo.v7x

variable {F : FTy → Type} [FloatOps F]

class Facts₀ : Prop where
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S131072 : S_.BroadcastsInDim S131072 (![] : Fin 0 → Fin S131072.rank)
  bcast_S131072_S131072x1_0 : S131072.BroadcastsInDim S131072x1 (![0] : Fin 1 → Fin S131072x1.rank)
  bcast_S_S8192x128 : S_.BroadcastsInDim S8192x128 (![] : Fin 0 → Fin S8192x128.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  slices_S512x1_S256x1_0_0 : S512x1.Slices ![0, 0] S256x1
  slices_S512x1_S256x1_256_0 : S512x1.Slices ![256, 0] S256x1
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  shapeCasts_S1_S_ : S1.ShapeCasts S_
  bcast_S_S8192x8192 : S_.BroadcastsInDim S8192x8192 (![] : Fin 0 → Fin S8192x8192.rank)
  gather_S8192x128_S131072x1_S131072x128_1_0_n_n_0_1_1128_wf : GatherDims.WF S8192x128 S131072x1 S131072x128 [1] [0] [] [0] [] 1 ![1, 128]
  scatter_S8192x128_S131072x1_S131072x128_1_0_0_1_wf : ScatterDims.WF S8192x128 S131072x1 S131072x128 [1] [0] [0] 1
  dot_S8192x128_S128x256_S8192x256_1_0_0_1_n_n_wf : DotDims.WF S8192x128 S128x256 S8192x256 [1] [0] [0] [1] [] []
  dot_S8192x256_S256x256_S8192x256_1_0_0_1_n_n_wf : DotDims.WF S8192x256 S256x256 S8192x256 [1] [0] [0] [1] [] []
  gather_S8192x256_S131072x1_S131072x256_1_0_n_n_0_1_1256_wf : GatherDims.WF S8192x256 S131072x1 S131072x256 [1] [0] [] [0] [] 1 ![1, 256]
  scatter_S8192x256_S131072x1_S131072x256_1_0_0_1_wf : ScatterDims.WF S8192x256 S131072x1 S131072x256 [1] [0] [0] 1
  dot_S8192x256_S256x1_S8192x1_1_0_0_1_n_n_wf : DotDims.WF S8192x256 S256x1 S8192x1 [1] [0] [0] [1] [] []

variable [Facts₀]

def gather_S8192x128_S131072x1_S131072x128_1_0_n_n_0_1_1128 : GatherDims S8192x128 S131072x1 S131072x128 where
  offsetDims := [1]
  collapsedSliceDims := [0]
  operandBatchingDims := []
  startIndicesBatchingDims := []
  startIndexMap := [0]
  indexVectorDim := 1
  sliceSizes := ![1, 128]
  wf := gather_S8192x128_S131072x1_S131072x128_1_0_n_n_0_1_1128_wf
def scatter_S8192x128_S131072x1_S131072x128_1_0_0_1 : ScatterDims S8192x128 S131072x1 S131072x128 where
  updateWindowDims := [1]
  insertedWindowDims := [0]
  scatterDimsToOperandDims := [0]
  indexVectorDim := 1
  wf := scatter_S8192x128_S131072x1_S131072x128_1_0_0_1_wf
def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def gather_S8192x256_S131072x1_S131072x256_1_0_n_n_0_1_1256 : GatherDims S8192x256 S131072x1 S131072x256 where
  offsetDims := [1]
  collapsedSliceDims := [0]
  operandBatchingDims := []
  startIndicesBatchingDims := []
  startIndexMap := [0]
  indexVectorDim := 1
  sliceSizes := ![1, 256]
  wf := gather_S8192x256_S131072x1_S131072x256_1_0_n_n_0_1_1256_wf
def scatter_S8192x256_S131072x1_S131072x256_1_0_0_1 : ScatterDims S8192x256 S131072x1 S131072x256 where
  updateWindowDims := [1]
  insertedWindowDims := [0]
  scatterDimsToOperandDims := [0]
  indexVectorDim := 1
  wf := scatter_S8192x256_S131072x1_S131072x256_1_0_0_1_wf
def dot_S8192x256_S256x1_S8192x1_1_0_0_1_n_n : DotDims S8192x256 S256x1 S8192x1 where
  lhsContracting := [1]
  rhsContracting := [0]
  lhsNonContracting := [0]
  rhsNonContracting := [1]
  lhsBatch := []
  rhsBatch := []
  wf := dot_S8192x256_S256x1_S8192x1_1_0_0_1_n_n_wf

class Facts : Prop extends Facts₀ where

variable [Facts]
-- ==== Proof.Spec.lean ====
/-
  The mathematics both programs compute, stated once over plain matrices of extended reals.

  A graph layer takes node features `X` (one row per node) and the neighbour sums `A` of the same shape, and
  sends row `i` to `relu (relu ((X i + A i) · wa + ba) · wb + bb)`; the second layer follows it with one more
  affine map `· wo + bo`.  Each row of the result depends on the same row of `X` and `A` only, so the result
  can be computed on any partition of the rows.  The edge score of the pair `(i, j)` is
  `Z i · w[0:256] + Z j · w[256:512] + b`.  The float zero of `relu` is kept as its word: both programs spell
  it the same way, so it is never evaluated.  Nothing here names a program.
-/
import Idealize.ShloMosaic.PureOps.Ideal.Laws
import Idealize.ShloMosaic.Lib.ValueIdx

noncomputable section

open scoped BigOperators

namespace Cert.Gin

open Idealize.ShloMosaic Idealize.ShloMosaic.ValueIdx

/-- An `M × N` matrix of extended reals, indexed as a rank-2 array is. -/
abbrev Mat (M N : ℕ) : Type := (⟨2, ![M, N]⟩ : Shape).Idx → EReal

/-- A length-`N` vector of extended reals, indexed as a rank-1 array is. -/
abbrev Vec1 (N : ℕ) : Type := (⟨1, ![N]⟩ : Shape).Idx → EReal

/-- The float zero, as its word. -/
abbrev zero : EReal := Ideal.ofBits .f32 0x00000000#32

/-- A matrix from its entries. -/
def ofFn2 {M N : ℕ} (f : Fin M → Fin N → EReal) : Mat M N := fun i => f (i 0) (i 1)

theorem ofFn2_apply {M N : ℕ} (f : Fin M → Fin N → EReal) (p : Fin M) (q : Fin N) : ofFn2 f (ix2 p q) = f p q := rfl

/-- A rank-1 array as a function of its coordinate. -/
def v1 {N : ℕ} (b : Vec1 N) : Fin N → EReal := fun j => b (ix1 j)

/-- The one row of a `1 × N` matrix as a function of the column. -/
def row0 {N : ℕ} (b : Mat 1 N) : Fin N → EReal := fun j => b (ix2 0 j)

/-- One affine map at a row: `(∑ l, x l * w (l, j)) + b j`. -/
def lin {K H : ℕ} (x : Fin K → EReal) (w : Mat K H) (b : Fin H → EReal) : Fin H → EReal :=
  fun j => (∑ l : Fin K, x l * w (ix2 l j)) + b j

/-- `relu` at a row: the larger of the entry and zero. -/
def act {H : ℕ} (v : Fin H → EReal) : Fin H → EReal := fun j => max (v j) zero

/-- The first layer at one node: features `x`, neighbour sum `a`. -/
def mlp0 (x a : Fin 128 → EReal) (wa : Mat 128 256) (ba : Fin 256 → EReal) (wb : Mat 256 256) (bb : Fin 256 → EReal) :
    Fin 256 → EReal :=
  act (lin (act (lin (fun l => x l + a l) wa ba)) wb bb)

/-- The second layer at one node, with its closing affine map. -/
def mlp1 (x a : Fin 256 → EReal) (wa : Mat 256 256) (ba : Fin 256 → EReal) (wb : Mat 256 256) (bb : Fin 256 → EReal)
    (wo : Mat 256 256) (bo : Fin 256 → EReal) : Fin 256 → EReal :=
  lin (act (lin (act (lin (fun l => x l + a l) wa ba)) wb bb)) wo bo

/-- The first layer on all 8192 nodes. -/
def L0 (X A : Mat 8192 128) (wa : Mat 128 256) (ba : Fin 256 → EReal) (wb : Mat 256 256) (bb : Fin 256 → EReal) :
    Mat 8192 256 :=
  ofFn2 fun p q => mlp0 (fun l => X (ix2 p l)) (fun l => A (ix2 p l)) wa ba wb bb q

theorem L0_apply (X A : Mat 8192 128) (wa : Mat 128 256) (ba : Fin 256 → EReal) (wb : Mat 256 256) (bb : Fin 256 → EReal)
    (p : Fin 8192) (q : Fin 256) :
    L0 X A wa ba wb bb (ix2 p q) = mlp0 (fun l => X (ix2 p l)) (fun l => A (ix2 p l)) wa ba wb bb q := rfl

/-- The second layer on all 8192 nodes. -/
def L1 (X A : Mat 8192 256) (wa : Mat 256 256) (ba : Fin 256 → EReal) (wb : Mat 256 256) (bb : Fin 256 → EReal)
    (wo : Mat 256 256) (bo : Fin 256 → EReal) : Mat 8192 256 :=
  ofFn2 fun p q => mlp1 (fun l => X (ix2 p l)) (fun l => A (ix2 p l)) wa ba wb bb wo bo q

theorem L1_apply (X A : Mat 8192 256) (wa : Mat 256 256) (ba : Fin 256 → EReal) (wb : Mat 256 256) (bb : Fin 256 → EReal)
    (wo : Mat 256 256) (bo : Fin 256 → EReal) (p : Fin 8192) (q : Fin 256) :
    L1 X A wa ba wb bb wo bo (ix2 p q) = mlp1 (fun l => X (ix2 p l)) (fun l => A (ix2 p l)) wa ba wb bb wo bo q := rfl

/-- The edge scores from node features `Z`, the left weights `wi` (a column), the right weights `wj`
    (a function of the feature) and the bias `b`: entry `(i, j)` is `Z i · wi + Z j · wj + b`. -/
def Sc (Z : Mat 8192 256) (wi wj : Fin 256 → EReal) (b : EReal) : Mat 8192 8192 :=
  ofFn2 fun i j => (∑ k : Fin 256, Z (ix2 i k) * wi k) + (∑ k : Fin 256, Z (ix2 j k) * wj k) + b

theorem Sc_apply (Z : Mat 8192 256) (wi wj : Fin 256 → EReal) (b : EReal) (i j : Fin 8192) :
    Sc Z wi wj b (ix2 i j) = (∑ k : Fin 256, Z (ix2 i k) * wi k) + (∑ k : Fin 256, Z (ix2 j k) * wj k) + b := rfl

/-- The edge scores as the third kernel computes them, from the features `X`, their transpose `XT`, the left
    weights as a column `wi`, the right weights as a row `wj` and the bias as a `1 × 1` matrix: entry `(i, j)` is
    `(∑ k, X (i, k) * wi (k, 0)) + (∑ k, wj (0, k) * XT (k, j)) + b (0, 0)`. -/
def Sc2 (X : Mat 8192 256) (XT : Mat 256 8192) (wi : Mat 256 1) (wj : Mat 1 256) (b : Mat 1 1) : Mat 8192 8192 :=
  ofFn2 fun i j => (∑ k : Fin 256, X (ix2 i k) * wi (ix2 k 0)) + (∑ k : Fin 256, wj (ix2 0 k) * XT (ix2 k j)) + b (ix2 0 0)

theorem Sc2_apply (X : Mat 8192 256) (XT : Mat 256 8192) (wi : Mat 256 1) (wj : Mat 1 256) (b : Mat 1 1) (i j : Fin 8192) :
    Sc2 X XT wi wj b (ix2 i j)
      = (∑ k : Fin 256, X (ix2 i k) * wi (ix2 k 0)) + (∑ k : Fin 256, wj (ix2 0 k) * XT (ix2 k j)) + b (ix2 0 0) := rfl

/-- The left half of the edge weights, as a function of the feature. -/
def wlo (we : Mat 512 1) : Fin 256 → EReal := fun k => we (ix2 ⟨k.val, by have := k.isLt; omega⟩ 0)

/-- The right half of the edge weights, as a function of the feature. -/
def whi (we : Mat 512 1) : Fin 256 → EReal := fun k => we (ix2 ⟨k.val + 256, by have := k.isLt; omega⟩ 0)

/-- The whole computation: two layers, each fed the neighbour sums of its own input (`n0`, `n1`: the same
    gather-and-scatter-add in both programs, carried as functions and never opened), then the edge scores. -/
def Total (n0 : Mat 8192 128 → Mat 8192 128) (n1 : Mat 8192 256 → Mat 8192 256)
    (x : Mat 8192 128) (w0a : Mat 128 256) (b0a : Vec1 256) (w0b : Mat 256 256) (b0b : Vec1 256)
    (w1a : Mat 256 256) (b1a : Vec1 256) (w1b : Mat 256 256) (b1b : Vec1 256) (wo : Mat 256 256) (bo : Vec1 256)
    (we : Mat 512 1) (be : Vec1 1) : Mat 8192 8192 :=
  Sc (L1 (L0 x (n0 x) w0a (v1 b0a) w0b (v1 b0b)) (n1 (L0 x (n0 x) w0a (v1 b0a) w0b (v1 b0b)))
        w1a (v1 b1a) w1b (v1 b1b) wo (v1 bo))
    (wlo we) (whi we) (be (ix1 0))

end Cert.Gin

end
-- ==== Proof.LibPlainMatmul.lean ====
/-
  A plain matrix product read at an entry.  For the dimension numbers of an `M × K` by `K × N` product
  (`DotDims.plain`: the left operand contracted on its columns, the right on its rows, no batch axis), a
  `tpu.matmul` into the zero splat is, at the extended reals and at row `r`, column `c`, the sum over
  `k : Fin K` of the left operand at `(r, k)` times the right at `(k, c)`.  Nothing here names a program.
-/
import Idealize.ShloMosaic.PureOps.Ideal.Laws
import Idealize.ShloMosaic.Lib.ValueIdx

namespace Cert.PlainMatmul

open Idealize.ShloMosaic Idealize.ShloMosaic.ValueIdx

/-- The left operand's index of a plain product at output `(r, c)` and contraction coordinate `k` is `(r, k)`. -/
theorem lhsIdx_plain {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 r c) _).trans hk

/-- The right operand's index there is `(k, c)`. -/
theorem rhsIdx_plain {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  apply Fin.ext
  match a with
  | ⟨0, _⟩ => exact ((DotDims.plain M K N).rhsIdx_val_of_single rfl (ix2 r c) _).trans hk
  | ⟨1, _⟩ => rfl

/-- A plain `tpu.matmul` into zeros, at entry `(r, c)`, is `∑ k, a (r, k) * b (k, c)` on the extended reals. -/
theorem matmul_plain_zero_apply {M K N : ℕ} {φ₁ φ₂ : FTy}
    (a : FVec Ideal ⟨2, ![M, K]⟩ φ₁) (b : FVec Ideal ⟨2, ![K, N]⟩ φ₂) (prec : Option ContractPrecision) (r : Fin M) (c : Fin N) :
    matmul (DotDims.plain M K N) prec a b (constant ⟨2, ![M, N]⟩ .f32 0x00000000#32) (ix2 r c)
      = ∑ k : Fin K, a (ix2 r k) * b (ix2 k c) := by
  show FloatOps.matmul (DotDims.plain M K N) prec a b (constant ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.PlainMatmul
-- ==== Proof.KRegion0.lean ====
/-
  The first layer's kernel, on its grid of eight row blocks: after the last grid point its output array holds the
  first layer of the arrays the region found.

  The body's arithmetic is, at row r and column q of a block, the first layer of row r of the two loaded row blocks
  (node features and neighbour sums) under the loaded weights and biases: two plain matrix products into zero, each
  followed by a bias row broadcast over the rows and the maximum with zero; the changes of float format between
  them are the identity on the extended reals.  Point t of the grid loads rows 1024 t .. 1024 t + 1023 of the two
  row-blocked operands and the whole of the four others, and writes back rows 1024 t .. 1024 t + 1023 of the result.
  A row of the first layer depends on the same row of the features and neighbour sums only, so what point t writes
  back is that block of the first layer of the whole arrays; the eight blocks cover the 8192 rows.
-/
import proofs.«171657_j76184129896629_1_alg».proof.Proof.Gen.KernelIdeal.Frame
import proofs.«171657_j76184129896629_1_alg».proof.Proof.Spec
import proofs.«171657_j76184129896629_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The body's arithmetic at an index -/

/-- The first contraction, 1024 × 128 by 128 × 256, is a plain matrix product. -/
theorem dot_hidden_plain : dot_S1024x128_S128x256_S1024x256_1_0_0_1_n_n = DotDims.plain 1024 128 256 := rfl

/-- The second contraction, 1024 × 256 by 256 × 256, is a plain matrix product. -/
theorem dot_out_plain : dot_S1024x256_S256x256_S1024x256_1_0_0_1_n_n = DotDims.plain 1024 256 256 := rfl

/-- One affine map followed by the maximum with zero, read at row `r` and column `q`: the product into zero is
    the sum over the contracted axis, the broadcast bias is the bias row at `q`, and the float zero stays a word. -/
theorem layer_apply {K : ℕ} (a : FVec Ideal ⟨2, ![1024, K]⟩ .bf16) (w : FVec Ideal ⟨2, ![K, 256]⟩ .bf16)
    (b : FVec Ideal S1x256 .f32) (hb : S1x256.Broadcasts S1024x256) (r : Fin 1024) (q : Fin 256) :
    maximumf (addf (matmul (DotDims.plain 1024 K 256) none a w (constant (F := Ideal) S1024x256 .f32 0x00000000#32))
        (broadcastTo S1024x256 b hb)) (broadcast S1024x256 (Scalar.ofBits (F := Ideal) .f32 0x00000000#32)) (ix2 r q)
      = Cert.Gin.act (Cert.Gin.lin (fun l => a (ix2 r l)) w (Cert.Gin.row0 b)) q := by
  show max (matmul (DotDims.plain 1024 K 256) none a w (constant (F := Ideal) S1024x256 .f32 0x00000000#32) (ix2 r q)
      + broadcastTo S1024x256 b hb (ix2 r q)) _ = max ((∑ l : Fin K, a (ix2 r l) * w (ix2 l q)) + b (ix2 0 q)) _
  rw [Cert.PlainMatmul.matmul_plain_zero_apply, broadcastTo_1b_ab_apply]
  rfl

/-- The body's arithmetic at row `r`, column `q` of its block: the first layer of row `r` of the two loaded row
    blocks.  The inner layer is read at every column `l` the outer sum runs over. -/
theorem pay_apply (x0 x1 : Vec Ideal S1024x128 .f32) (x2 : Vec Ideal S128x256 .f32) (x3 : Vec Ideal S1x256 .f32)
    (x4 : Vec Ideal S256x256 .f32) (x5 : Vec Ideal S1x256 .f32) (r : Fin 1024) (q : Fin 256) :
    k0_pay1 (F := Ideal) x0 x1 x2 x3 x4 x5 (ix2 r q)
      = Cert.Gin.mlp0 (fun l => x0 (ix2 r l)) (fun l => x1 (ix2 r l)) x2 (Cert.Gin.row0 x3) x4 (Cert.Gin.row0 x5) q := by
  unfold k0_pay1
  simp only [shapeCast_self]
  refine (layer_apply (K := 256) _ _ x5 _ r q).trans ?_
  unfold Cert.Gin.mlp0
  refine congrArg (fun v => Cert.Gin.act (Cert.Gin.lin v x4 (Cert.Gin.row0 x5)) q) (funext fun l => ?_)
  exact layer_apply (K := 128) _ _ x3 _ r l

/-- The same against the whole arrays: when row `r` of the two row blocks is row `p` of the arrays `X` and `A` and the
    four other blocks are the whole arrays, the body's result at `(r, q)` is the first layer of the arrays at `(p, q)`. -/
theorem pay_row (X A : Cert.Gin.Mat 8192 128) (wa : Cert.Gin.Mat 128 256) (ba : Cert.Gin.Mat 1 256)
    (wb : Cert.Gin.Mat 256 256) (bb : Cert.Gin.Mat 1 256)
    (x0 x1 : Vec Ideal S1024x128 .f32) (x2 : Vec Ideal S128x256 .f32) (x3 : Vec Ideal S1x256 .f32)
    (x4 : Vec Ideal S256x256 .f32) (x5 : Vec Ideal S1x256 .f32) (r : Fin 1024) (q : Fin 256) (p : Fin 8192)
    (h0 : ∀ l : Fin 128, x0 (ix2 r l) = X (ix2 p l)) (h1 : ∀ l : Fin 128, x1 (ix2 r l) = A (ix2 p l))
    (h2 : x2 = wa) (h3 : x3 = ba) (h4 : x4 = wb) (h5 : x5 = bb) :
    k0_pay1 (F := Ideal) x0 x1 x2 x3 x4 x5 (ix2 r q)
      = Cert.Gin.L0 X A wa (Cert.Gin.row0 ba) wb (Cert.Gin.row0 bb) (ix2 p q) := by
  subst h2 h3 h4 h5
  rw [pay_apply, Cert.Gin.L0_apply]
  rw [funext h0, funext h1]

/-! ## Where each block sits in its array -/

/-- The zero offsets of a whole-block access, as the body spells them. -/
theorem hz : (![0, 0] : Fin 2 → Nat) = fun _ => 0 := funext fun a => by fin_cases a <;> rfl

/-- The block indices at grid point `t`: the two row-blocked operands and the result are at row block `t`, column
    block 0; the weights and bias rows are whole, at block (0, 0).  Decided over the eight points. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `r` of point `t`'s block of the node features is row `1024 t + r` of the array. -/
theorem features_block (c : Dev nD) (t : Fin cfg0.N) (r : Fin 1024) (l : Fin 128) (p : Fin 8192)
    (hp : p.val = t.val * 1024 + r.val) :
    (iblk0 V c 0 t : Vec Ideal S1024x128 .f32) (ix2 r l) = (V c main_arg0 : Cert.Gin.Mat 8192 128) (ix2 p l) := by
  obtain ⟨e0, e1, -⟩ := block_index t
  unfold iblk0
  rw [View.read_apply]
  show V c main_arg0 _ = V c main_arg0 _
  refine congrArg (V c main_arg0) (funext fun a => Fin.ext ?_)
  match a with
  | ⟨0, _⟩ => show win0_0.index t (0 : Fin 2) * 1024 + 1 * r.val = p.val; rw [e0, hp]; omega
  | ⟨1, _⟩ => show win0_0.index t (1 : Fin 2) * 128 + 1 * l.val = l.val; rw [e1]; omega

/-- Row `r` of point `t`'s block of the neighbour sums is row `1024 t + r` of the array. -/
theorem sums_block (c : Dev nD) (t : Fin cfg0.N) (r : Fin 1024) (l : Fin 128) (p : Fin 8192)
    (hp : p.val = t.val * 1024 + r.val) :
    (iblk0 V c 1 t : Vec Ideal S1024x128 .f32) (ix2 r l) = (V c main_v13 : Cert.Gin.Mat 8192 128) (ix2 p l) := by
  obtain ⟨-, -, e0, e1, -⟩ := block_index t
  unfold iblk0
  rw [View.read_apply]
  show V c main_v13 _ = V c main_v13 _
  refine congrArg (V c main_v13) (funext fun a => Fin.ext ?_)
  match a with
  | ⟨0, _⟩ => show win0_1.index t (0 : Fin 2) * 1024 + 1 * r.val = p.val; rw [e0, hp]; omega
  | ⟨1, _⟩ => show win0_1.index t (1 : Fin 2) * 128 + 1 * l.val = l.val; rw [e1]; omega

/-- The first weight matrix is loaded whole at every point. -/
theorem weights_hidden_block (c : Dev nD) (t : Fin cfg0.N) :
    (iblk0 V c 2 t : Vec Ideal S128x256 .f32) = V c main_arg2 := by
  obtain ⟨-, -, -, -, e0, e1, -⟩ := block_index t
  funext x
  unfold iblk0
  rw [View.read_apply]
  show V c main_arg2 _ = V c main_arg2 x
  refine congrArg (V c main_arg2) (funext fun a => Fin.ext ?_)
  match a with
  | ⟨0, _⟩ => show win0_2.index t (0 : Fin 2) * 128 + 1 * (x 0).val = (x 0).val; rw [e0]; omega
  | ⟨1, _⟩ => show win0_2.index t (1 : Fin 2) * 256 + 1 * (x 1).val = (x 1).val; rw [e1]; omega

/-- The first bias row is loaded whole at every point. -/
theorem bias_hidden_block (c : Dev nD) (t : Fin cfg0.N) :
    (iblk0 V c 3 t : Vec Ideal S1x256 .f32) = V c main_v14 := by
  obtain ⟨-, -, -, -, -, -, e0, e1, -⟩ := block_index t
  funext x
  unfold iblk0
  rw [View.read_apply]
  show V c main_v14 _ = V c main_v14 x
  refine congrArg (V c main_v14) (funext fun a => Fin.ext ?_)
  match a with
  | ⟨0, _⟩ => show win0_3.index t (0 : Fin 2) * 1 + 1 * (x 0).val = (x 0).val; rw [e0]; omega
  | ⟨1, _⟩ => show win0_3.index t (1 : Fin 2) * 256 + 1 * (x 1).val = (x 1).val; rw [e1]; omega

/-- The second weight matrix is loaded whole at every point. -/
theorem weights_out_block (c : Dev nD) (t : Fin cfg0.N) :
    (iblk0 V c 4 t : Vec Ideal S256x256 .f32) = V c main_arg4 := by
  obtain ⟨-, -, -, -, -, -, -, -, e0, e1, -⟩ := block_index t
  funext x
  unfold iblk0
  rw [View.read_apply]
  show V c main_arg4 _ = V c main_arg4 x
  refine congrArg (V c main_arg4) (funext fun a => Fin.ext ?_)
  match a with
  | ⟨0, _⟩ => show win0_4.index t (0 : Fin 2) * 256 + 1 * (x 0).val = (x 0).val; rw [e0]; omega
  | ⟨1, _⟩ => show win0_4.index t (1 : Fin 2) * 256 + 1 * (x 1).val = (x 1).val; rw [e1]; omega

/-- The second bias row is loaded whole at every point. -/
theorem bias_out_block (c : Dev nD) (t : Fin cfg0.N) :
    (iblk0 V c 5 t : Vec Ideal S1x256 .f32) = V c main_v15 := by
  obtain ⟨-, -, -, -, -, -, -, -, -, -, e0, e1, -⟩ := block_index t
  funext x
  unfold iblk0
  rw [View.read_apply]
  show V c main_v15 _ = V c main_v15 x
  refine congrArg (V c main_v15) (funext fun a => Fin.ext ?_)
  match a with
  | ⟨0, _⟩ => show win0_5.index t (0 : Fin 2) * 1 + 1 * (x 0).val = (x 0).val; rw [e0]; omega
  | ⟨1, _⟩ => show win0_5.index t (1 : Fin 2) * 256 + 1 * (x 1).val = (x 1).val; rw [e1]; omega

/-! ## What a point writes back, and the whole array -/

/-- What grid point `t` writes back is block `t` of the first layer of the arrays the region found: entry `(r, q)`
    of the body's result is the first layer at row `1024 t + r`, which is where the result's block puts it. -/
theorem flushed_eq (c : Dev nD) (t : Fin cfg0.N) :
    (dat0 (F := Ideal) V c).flushed 6 t = ((cfg0.win 6).blk t).view.read (Elt Ideal)
      (Cert.Gin.L0 (V c main_arg0) (V c main_v13) (V c main_arg2) (Cert.Gin.row0 (V c main_v14))
        (V c main_arg4) (Cert.Gin.row0 (V c main_v15))) := by
  show (cfg0.win 6).cut (grid0.coords t) ((dat0 V c).after 6 t) = _
  rw [after0_6]
  unfold out0_6
  rw [View.canon_unit_zero hz]
  simp only [View.ld_unit_zero (S := S1024x128) hz, View.ld_unit_zero (S := S128x256) hz,
    View.ld_unit_zero (S := S1x256) hz, View.ld_unit_zero (S := S256x256) hz]
  funext j
  obtain ⟨r, q, rfl⟩ : ∃ (r : Fin 1024) (q : Fin 256), j = ix2 r q := ⟨j 0, j 1, eq_ix2 j⟩
  rw [View.read_apply]
  have ht : t.val < 8 := Nat.lt_of_lt_of_eq t.isLt N_0
  have hr : r.val < 1024 := r.isLt
  have hp : t.val * 1024 + r.val < 8192 := by omega
  obtain ⟨-, -, -, -, -, -, -, -, -, -, -, -, e0, e1⟩ := block_index t
  have hemb : ((cfg0.win 6).blk t).view.emb (ix2 r q) = ix2 (⟨t.val * 1024 + r.val, hp⟩ : Fin 8192) q := by
    funext a
    apply Fin.ext
    match a with
    | ⟨0, _⟩ => show win0_6.index t (0 : Fin 2) * 1024 + 1 * r.val = t.val * 1024 + r.val; rw [e0]; omega
    | ⟨1, _⟩ => show win0_6.index t (1 : Fin 2) * 256 + 1 * q.val = q.val; rw [e1]; omega
  show k0_pay1 (F := Ideal) (iblk0 V c 0 t) (iblk0 V c 1 t) (iblk0 V c 2 t) (iblk0 V c 3 t) (iblk0 V c 4 t) (iblk0 V c 5 t) (ix2 r q)
    = Cert.Gin.L0 (V c main_arg0) (V c main_v13) (V c main_arg2) (Cert.Gin.row0 (V c main_v14))
        (V c main_arg4) (Cert.Gin.row0 (V c main_v15)) (((cfg0.win 6).blk t).view.emb (ix2 r q))
  refine (pay_row (V c main_arg0) (V c main_v13) (V c main_arg2) (V c main_v14) (V c main_arg4) (V c main_v15)
    (iblk0 V c 0 t) (iblk0 V c 1 t) (iblk0 V c 2 t) (iblk0 V c 3 t) (iblk0 V c 4 t) (iblk0 V c 5 t) r q
    ⟨t.val * 1024 + r.val, hp⟩
    (fun l => features_block V c t r l _ rfl) (fun l => sums_block V c t r l _ rfl)
    (weights_hidden_block V c t) (bias_hidden_block V c t) (weights_out_block V c t) (bias_out_block V c t)).trans ?_
  exact congrArg (Cert.Gin.L0 (V c main_arg0) (V c main_v13) (V c main_arg2) (Cert.Gin.row0 (V c main_v14))
    (V c main_arg4) (Cert.Gin.row0 (V c main_v15))) hemb.symm

/-- An index of the result array is in point `t`'s block iff each coordinate is in the block's range on its axis. -/
theorem mem_result_block (t : Fin cfg0.N) (i : S8192x256.Idx) :
    i ∈ ((cfg0.win 6).blk t).view.set
      ↔ ∀ a : Fin 2, win0_6.index t a * S1024x256.size a ≤ (i a).val
          ∧ (i a).val < win0_6.index t a * S1024x256.size a + S1024x256.size a := by
  show i ∈ ((View.whole main_v16).slice (win0_6.rect t)).set ↔ _
  rw [View.set_slice_whole, Rect.mem_set_unit]
  exact Iff.rfl

/-- Every index of the result array lies in some point's block: row `p` is in the block of point `p / 1024`. -/
theorem result_cover (i : S8192x256.Idx) :
    ∃ t : Fin cfg0.N, (cfg0.win 6).flush t = true ∧ i ∈ ((cfg0.win 6).blk t).view.set := by
  have hi0 : (i 0).val < 8192 := (i 0).isLt
  have hi1 : (i 1).val < 256 := (i 1).isLt
  have hN : cfg0.N = 8 := N_0
  have hq : (i 0).val / 1024 < cfg0.N := by rw [hN]; omega
  refine ⟨⟨(i 0).val / 1024, hq⟩, flush0_6 _, ?_⟩
  obtain ⟨-, -, -, -, -, -, -, -, -, -, -, -, e0, e1⟩ := block_index ⟨(i 0).val / 1024, hq⟩
  rw [mem_result_block]
  intro a
  match a with
  | ⟨0, _⟩ =>
    show win0_6.index ⟨(i 0).val / 1024, hq⟩ (0 : Fin 2) * 1024 ≤ (i 0).val
      ∧ (i 0).val < win0_6.index ⟨(i 0).val / 1024, hq⟩ (0 : Fin 2) * 1024 + 1024
    rw [e0]
    show (i 0).val / 1024 * 1024 ≤ (i 0).val ∧ (i 0).val < (i 0).val / 1024 * 1024 + 1024
    omega
  | ⟨1, _⟩ =>
    show win0_6.index ⟨(i 0).val / 1024, hq⟩ (1 : Fin 2) * 256 ≤ (i 1).val
      ∧ (i 1).val < win0_6.index ⟨(i 0).val / 1024, hq⟩ (1 : Fin 2) * 256 + 256
    rw [e1]
    omega

/-- The output array of the first layer's region, after its eight points, is the first layer `Cert.Gin.L0` of the
    region's operands as it found them: node features, neighbour sums, the two weight matrices and the two bias rows. -/
theorem final0 (c : Dev nD) :
    (dat0 (F := Ideal) V c).arrAt 6 cfg0.N =
      Cert.Gin.L0 (V c main_arg0) (V c main_v13) (V c main_arg2) (Cert.Gin.row0 (V c main_v14))
        (V c main_arg4) (Cert.Gin.row0 (V c main_v15)) :=
  (dat0 (F := Ideal) V c).arrAt_eq_of_cover 6
    (Cert.Gin.L0 (V c main_arg0) (V c main_v13) (V c main_arg2) (Cert.Gin.row0 (V c main_v14))
      (V c main_arg4) (Cert.Gin.row0 (V c main_v15)))
    (fun t _ => flushed_eq V c t) result_cover

end Cert.KernelIdeal.Region0

end
-- ==== Proof.KRegion1.lean ====
/-
  The second layer's kernel, on its grid of eight row blocks: after the last grid point its output array holds the
  second layer (with its closing affine map) of the arrays the region found.
-/
import proofs.«171657_j76184129896629_1_alg».proof.Proof.Gen.KernelIdeal.Frame
import proofs.«171657_j76184129896629_1_alg».proof.Proof.Spec
import proofs.«171657_j76184129896629_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The body's result at an entry -/

/-- The dimension numbers the body's three products are printed with are those of a plain `1024 × 256` by
    `256 × 256` product: the left operand contracted on its columns, the right on its rows, no batch axis. -/
theorem dot_eq_plain : dot_S1024x256_S256x256_S1024x256_1_0_0_1_n_n = DotDims.plain 1024 256 256 := rfl

/-- One affine stage of the body at an entry: a product into zeros of a `1024 × 256` block `a` with the weights `w`
    (their change of format is the identity on the extended reals), plus the bias row `b` repeated down the rows, is at
    `(r, q)` the affine map `Cert.Gin.lin` of row `r` of `a`.  The row is given as a function `x` with `a (r, l) = x l`,
    so that the stages compose. -/
theorem stage_apply {φ : FTy} (a : FVec Ideal S1024x256 φ) (w : Vec Ideal S256x256 .f32) (b : Vec Ideal S1x256 .f32)
    (r : Fin 1024) (q : Fin 256) (x : Fin 256 → EReal) (hx : ∀ l : Fin 256, a (ix2 r l) = x l) :
    addf (F := Ideal)
        (matmul dot_S1024x256_S256x256_S1024x256_1_0_0_1_n_n none a (truncf .bf16 w bitsLt_bf16_f32)
          (constant S1024x256 .f32 0x00000000#32))
        (broadcastTo S1024x256 (shapeCast S1x256 b shapeCasts_S1x256_S1x256) broadcasts_S1x256_S1024x256) (ix2 r q)
      = Cert.Gin.lin x w (Cert.Gin.row0 b) q := by
  rw [addf_apply, shapeCast_self, broadcastTo_1b_ab_apply, dot_eq_plain]
  refine congrArg (· + b (ix2 0 q)) ?_
  refine (Cert.PlainMatmul.matmul_plain_zero_apply a (truncf .bf16 w bitsLt_bf16_f32) none r q).trans ?_
  refine Finset.sum_congr rfl fun l _ => ?_
  rw [hx l]
  rfl

/-- THE BODY'S RESULT AT AN ENTRY.  Entry `(r, q)` of what the body stores, from the blocks it loads, is the second
    layer `Cert.Gin.mlp1` at row `r` of the two row blocks `x` and `a`: it depends on that row of the two and on the
    whole weights and biases only.  The changes of format are the identity on the extended reals, the three products
    are plain sums, and the float zero under each `max` is the specification's, word for word. -/
theorem pay_apply (x a : Vec Ideal S1024x256 .f32) (wa : Vec Ideal S256x256 .f32) (ba : Vec Ideal S1x256 .f32)
    (wb : Vec Ideal S256x256 .f32) (bb : Vec Ideal S1x256 .f32) (wo : Vec Ideal S256x256 .f32) (bo : Vec Ideal S1x256 .f32)
    (r : Fin 1024) (q : Fin 256) :
    k1_pay1 (F := Ideal) x a wa ba wb bb wo bo (ix2 r q)
      = Cert.Gin.mlp1 (fun l => x (ix2 r l)) (fun l => a (ix2 r l)) wa (Cert.Gin.row0 ba) wb (Cert.Gin.row0 bb)
          wo (Cert.Gin.row0 bo) q := by
  unfold k1_pay1 Cert.Gin.mlp1
  refine stage_apply _ wo bo r q _ fun l2 => ?_
  refine congrArg (fun z : EReal => max z Cert.Gin.zero) ?_
  refine stage_apply _ wb bb r l2 _ fun l1 => ?_
  refine congrArg (fun z : EReal => max z Cert.Gin.zero) ?_
  refine stage_apply _ wa ba r l1 _ fun l0 => ?_
  rw [truncf_apply, addf_apply, shapeCast_self, shapeCast_self]

/-! ## The blocks: which rows and columns of the arrays each point reads and writes -/

/-- The offsets of an access to a whole buffer are zero on both axes. -/
theorem offsets_zero : (![0, 0] : Fin 2 → Nat) = fun _ => 0 := funext fun a => by fin_cases a <;> rfl

/-- WHERE THE BLOCKS SIT, decided once over the eight grid points.  The two row operands and the output move together:
    at point `t` each has block index `(t, 0)`, the `t`-th block of 1024 rows.  The three weight matrices and the three
    bias rows are each one block, the whole array, at block index `(0, 0)` at every point. -/
theorem index_facts : ∀ t : Fin cfg1.N, t.val < 8
    ∧ (win1_0.index t (0 : Fin 2) = t.val ∧ win1_0.index t (1 : Fin 2) = 0)
    ∧ (win1_1.index t (0 : Fin 2) = t.val ∧ win1_1.index t (1 : Fin 2) = 0)
    ∧ (win1_8.index t (0 : Fin 2) = t.val ∧ win1_8.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0) :=
  (by decide +kernel : ∀ t : Fin grid1.N, _)

/-- Row `r` of the `t`-th block of 1024 rows is row `1024 t + r` of the 8192. -/
def rowOf (t : Fin cfg1.N) (r : Fin 1024) : Fin 8192 :=
  ⟨t.val * 1024 + r.val, by have := (index_facts t).1; have := r.isLt; omega⟩

/-- The features' block at point `t`, at `(r, l)`, is the features at row `1024 t + r`, column `l`. -/
theorem features_block (c : Dev nD) (t : Fin cfg1.N) (r : Fin 1024) (l : Fin 256) :
    (iblk1 (F := Ideal) V c 0 t : Vec Ideal S1024x256 .f32) (ix2 r l)
      = (V c main_v16 : Cert.Gin.Mat 8192 256) (ix2 (rowOf t r) l) := by
  obtain ⟨-, ⟨e0, e1⟩, -⟩ := index_facts t
  unfold iblk1
  rw [View.read_apply]
  show V c main_v16 _ = V c main_v16 _
  refine congrArg (V c main_v16) ?_
  funext a
  apply Fin.ext
  match a with
  | ⟨0, _⟩ => show win1_0.index t (0 : Fin 2) * 1024 + 1 * r.val = t.val * 1024 + r.val; rw [e0]; omega
  | ⟨1, _⟩ => show win1_0.index t (1 : Fin 2) * 256 + 1 * l.val = l.val; rw [e1]; omega

/-- The neighbour sums' block at point `t`, at `(r, l)`, is the neighbour sums at row `1024 t + r`, column `l`. -/
theorem neighbours_block (c : Dev nD) (t : Fin cfg1.N) (r : Fin 1024) (l : Fin 256) :
    (iblk1 (F := Ideal) V c 1 t : Vec Ideal S1024x256 .f32) (ix2 r l)
      = (V c main_v26 : Cert.Gin.Mat 8192 256) (ix2 (rowOf t r) l) := by
  obtain ⟨-, -, ⟨e0, e1⟩, -⟩ := index_facts t
  unfold iblk1
  rw [View.read_apply]
  show V c main_v26 _ = V c main_v26 _
  refine congrArg (V c main_v26) ?_
  funext a
  apply Fin.ext
  match a with
  | ⟨0, _⟩ => show win1_1.index t (0 : Fin 2) * 1024 + 1 * r.val = t.val * 1024 + r.val; rw [e0]; omega
  | ⟨1, _⟩ => show win1_1.index t (1 : Fin 2) * 256 + 1 * l.val = l.val; rw [e1]; omega

/-- Any `8192 × 256` array read through the output's block at point `t`, at `(r, q)`, is the array at row
    `1024 t + r`, column `q`. -/
theorem output_block (c : Dev nD) (t : Fin cfg1.N) (G : Cert.Gin.Mat 8192 256) (r : Fin 1024) (q : Fin 256) :
    ((cfg1.win 8).blk t).view.read (Elt Ideal) G (ix2 r q) = G (ix2 (rowOf t r) q) := by
  obtain ⟨-, -, -, ⟨e0, e1⟩, -⟩ := index_facts t
  rw [View.read_apply]
  show G _ = G _
  refine congrArg G ?_
  funext a
  apply Fin.ext
  match a with
  | ⟨0, _⟩ => show win1_8.index t (0 : Fin 2) * 1024 + 1 * r.val = t.val * 1024 + r.val; rw [e0]; omega
  | ⟨1, _⟩ => show win1_8.index t (1 : Fin 2) * 256 + 1 * q.val = q.val; rw [e1]; omega

/-- The first weights' one block, at every point, is the whole matrix. -/
theorem weights_a_block (c : Dev nD) (t : Fin cfg1.N) :
    (iblk1 (F := Ideal) V c 2 t : Vec Ideal S256x256 .f32) = (V c main_arg6 : Cert.Gin.Mat 256 256) := by
  obtain ⟨-, -, -, -, ⟨e0, e1⟩, -⟩ := index_facts t
  funext y
  unfold iblk1
  rw [View.read_apply]
  show V c main_arg6 _ = V c main_arg6 y
  refine congrArg (V c main_arg6) ?_
  funext a
  apply Fin.ext
  match a with
  | ⟨0, _⟩ => show win1_2.index t (0 : Fin 2) * 256 + 1 * (y 0).val = (y 0).val; rw [e0]; omega
  | ⟨1, _⟩ => show win1_2.index t (1 : Fin 2) * 256 + 1 * (y 1).val = (y 1).val; rw [e1]; omega

/-- The first bias row's one block, at every point, is the whole row. -/
theorem bias_a_block (c : Dev nD) (t : Fin cfg1.N) :
    (iblk1 (F := Ideal) V c 3 t : Vec Ideal S1x256 .f32) = (V c main_v27 : Cert.Gin.Mat 1 256) := by
  obtain ⟨-, -, -, -, -, ⟨e0, e1⟩, -⟩ := index_facts t
  funext y
  unfold iblk1
  rw [View.read_apply]
  show V c main_v27 _ = V c main_v27 y
  refine congrArg (V c main_v27) ?_
  funext a
  apply Fin.ext
  match a with
  | ⟨0, _⟩ => show win1_3.index t (0 : Fin 2) * 1 + 1 * (y 0).val = (y 0).val; rw [e0]; omega
  | ⟨1, _⟩ => show win1_3.index t (1 : Fin 2) * 256 + 1 * (y 1).val = (y 1).val; rw [e1]; omega

/-- The second weights' one block, at every point, is the whole matrix. -/
theorem weights_b_block (c : Dev nD) (t : Fin cfg1.N) :
    (iblk1 (F := Ideal) V c 4 t : Vec Ideal S256x256 .f32) = (V c main_arg8 : Cert.Gin.Mat 256 256) := by
  obtain ⟨-, -, -, -, -, -, ⟨e0, e1⟩, -⟩ := index_facts t
  funext y
  unfold iblk1
  rw [View.read_apply]
  show V c main_arg8 _ = V c main_arg8 y
  refine congrArg (V c main_arg8) ?_
  funext a
  apply Fin.ext
  match a with
  | ⟨0, _⟩ => show win1_4.index t (0 : Fin 2) * 256 + 1 * (y 0).val = (y 0).val; rw [e0]; omega
  | ⟨1, _⟩ => show win1_4.index t (1 : Fin 2) * 256 + 1 * (y 1).val = (y 1).val; rw [e1]; omega

/-- The second bias row's one block, at every point, is the whole row. -/
theorem bias_b_block (c : Dev nD) (t : Fin cfg1.N) :
    (iblk1 (F := Ideal) V c 5 t : Vec Ideal S1x256 .f32) = (V c main_v28 : Cert.Gin.Mat 1 256) := by
  obtain ⟨-, -, -, -, -, -, -, ⟨e0, e1⟩, -⟩ := index_facts t
  funext y
  unfold iblk1
  rw [View.read_apply]
  show V c main_v28 _ = V c main_v28 y
  refine congrArg (V c main_v28) ?_
  funext a
  apply Fin.ext
  match a with
  | ⟨0, _⟩ => show win1_5.index t (0 : Fin 2) * 1 + 1 * (y 0).val = (y 0).val; rw [e0]; omega
  | ⟨1, _⟩ => show win1_5.index t (1 : Fin 2) * 256 + 1 * (y 1).val = (y 1).val; rw [e1]; omega

/-- The closing weights' one block, at every point, is the whole matrix. -/
theorem weights_o_block (c : Dev nD) (t : Fin cfg1.N) :
    (iblk1 (F := Ideal) V c 6 t : Vec Ideal S256x256 .f32) = (V c main_arg10 : Cert.Gin.Mat 256 256) := by
  obtain ⟨-, -, -, -, -, -, -, -, ⟨e0, e1⟩, -⟩ := index_facts t
  funext y
  unfold iblk1
  rw [View.read_apply]
  show V c main_arg10 _ = V c main_arg10 y
  refine congrArg (V c main_arg10) ?_
  funext a
  apply Fin.ext
  match a with
  | ⟨0, _⟩ => show win1_6.index t (0 : Fin 2) * 256 + 1 * (y 0).val = (y 0).val; rw [e0]; omega
  | ⟨1, _⟩ => show win1_6.index t (1 : Fin 2) * 256 + 1 * (y 1).val = (y 1).val; rw [e1]; omega

/-- The closing bias row's one block, at every point, is the whole row. -/
theorem bias_o_block (c : Dev nD) (t : Fin cfg1.N) :
    (iblk1 (F := Ideal) V c 7 t : Vec Ideal S1x256 .f32) = (V c main_v29 : Cert.Gin.Mat 1 256) := by
  obtain ⟨-, -, -, -, -, -, -, -, -, e0, e1⟩ := index_facts t
  funext y
  unfold iblk1
  rw [View.read_apply]
  show V c main_v29 _ = V c main_v29 y
  refine congrArg (V c main_v29) ?_
  funext a
  apply Fin.ext
  match a with
  | ⟨0, _⟩ => show win1_7.index t (0 : Fin 2) * 1 + 1 * (y 0).val = (y 0).val; rw [e0]; omega
  | ⟨1, _⟩ => show win1_7.index t (1 : Fin 2) * 256 + 1 * (y 1).val = (y 1).val; rw [e1]; omega

/-- WHAT POINT `t` WRITES BACK is block `t` of the second layer of the arrays the region found: entry `(r, q)` of the
    body's result is the layer at row `r` of the two row blocks, which are rows `1024 t + r` of the features and of the
    neighbour sums, with the whole weights and biases; and the output's block puts it at row `1024 t + r`. -/
theorem flushed_eq (c : Dev nD) (t : Fin cfg1.N) :
    (dat1 (F := Ideal) V c).flushed 8 t = ((cfg1.win 8).blk t).view.read (Elt Ideal)
      (Cert.Gin.L1 (V c main_v16) (V c main_v26) (V c main_arg6) (Cert.Gin.row0 (V c main_v27))
        (V c main_arg8) (Cert.Gin.row0 (V c main_v28)) (V c main_arg10) (Cert.Gin.row0 (V c main_v29))) := by
  show (cfg1.win 8).cut (grid1.coords t) ((dat1 V c).after 8 t) = _
  rw [after1_8]
  unfold out1_8
  rw [View.canon_unit_zero offsets_zero]
  simp only [View.ld_unit_zero (S := S1024x256) offsets_zero, View.ld_unit_zero (S := S256x256) offsets_zero,
    View.ld_unit_zero (S := S1x256) offsets_zero]
  funext j
  obtain ⟨r, q, rfl⟩ : ∃ (r : Fin 1024) (q : Fin 256), j = ix2 r q := ⟨j 0, j 1, eq_ix2 j⟩
  refine (pay_apply (iblk1 V c 0 t) (iblk1 V c 1 t) (iblk1 V c 2 t) (iblk1 V c 3 t) (iblk1 V c 4 t) (iblk1 V c 5 t)
    (iblk1 V c 6 t) (iblk1 V c 7 t) r q).trans ?_
  refine Eq.trans ?_ (output_block c t _ r q).symm
  have hx : (fun l : Fin 256 => (iblk1 (F := Ideal) V c 0 t : Vec Ideal S1024x256 .f32) (ix2 r l))
      = fun l => (V c main_v16 : Cert.Gin.Mat 8192 256) (ix2 (rowOf t r) l) := funext fun l => features_block V c t r l
  have ha : (fun l : Fin 256 => (iblk1 (F := Ideal) V c 1 t : Vec Ideal S1024x256 .f32) (ix2 r l))
      = fun l => (V c main_v26 : Cert.Gin.Mat 8192 256) (ix2 (rowOf t r) l) := funext fun l => neighbours_block V c t r l
  rw [hx, ha, weights_a_block V c t, bias_a_block V c t, weights_b_block V c t, bias_b_block V c t,
    weights_o_block V c t, bias_o_block V c t]
  rfl

/-! ## From the eight blocks to the array -/

/-- An index of the output array is in point `t`'s block iff each coordinate is in the block's range on its axis. -/
theorem mem_block (t : Fin cfg1.N) (i : S8192x256.Idx) :
    i ∈ ((cfg1.win 8).blk t).view.set ↔ ∀ a : Fin 2, win1_8.index t a * S1024x256.size a ≤ (i a).val
      ∧ (i a).val < win1_8.index t a * S1024x256.size a + S1024x256.size a := by
  show i ∈ ((View.whole main_v30).slice (win1_8.rect t)).set ↔ _
  rw [View.set_slice_whole, Rect.mem_set_unit]
  exact Iff.rfl

/-- THE EIGHT BLOCKS FILL THE ARRAY: row `p` lies in the block of point `p / 1024`, and every block spans all 256
    columns; every point writes its block back. -/
theorem covered (i : S8192x256.Idx) :
    ∃ t : Fin cfg1.N, (cfg1.win 8).flush t = true ∧ i ∈ ((cfg1.win 8).blk t).view.set := by
  have hi0 : (i 0).val < 8192 := (i 0).isLt
  have hi1 : (i 1).val < 256 := (i 1).isLt
  obtain ⟨t, ht⟩ : ∃ t : Fin cfg1.N, t.val = (i 0).val / 1024 :=
    ⟨⟨(i 0).val / 1024, by show (i 0).val / 1024 < 8; omega⟩, rfl⟩
  obtain ⟨-, -, -, ⟨e0, e1⟩, -⟩ := index_facts t
  refine ⟨t, flush1_8 t, ?_⟩
  rw [mem_block]
  intro a
  match a with
  | ⟨0, _⟩ =>
    show win1_8.index t (0 : Fin 2) * 1024 ≤ (i 0).val ∧ (i 0).val < win1_8.index t (0 : Fin 2) * 1024 + 1024
    rw [e0, ht]; omega
  | ⟨1, _⟩ =>
    show win1_8.index t (1 : Fin 2) * 256 ≤ (i 1).val ∧ (i 1).val < win1_8.index t (1 : Fin 2) * 256 + 256
    rw [e1]; omega

/-- The output array of the second layer's region, after its eight points, is the second layer `Cert.Gin.L1` of the
    region's operands as it found them. -/
theorem final1 (c : Dev nD) :
    (dat1 (F := Ideal) V c).arrAt 8 cfg1.N =
      Cert.Gin.L1 (V c main_v16) (V c main_v26) (V c main_arg6) (Cert.Gin.row0 (V c main_v27))
        (V c main_arg8) (Cert.Gin.row0 (V c main_v28)) (V c main_arg10) (Cert.Gin.row0 (V c main_v29)) :=
  (dat1 (F := Ideal) V c).arrAt_eq_of_cover 8 _ (fun t _ => flushed_eq V c t) covered

end Cert.KernelIdeal.Region1

end
-- ==== Proof.KRegion2.lean ====
/-
  The edge-score kernel, on its 8 × 8 grid of square blocks: after the last grid point its output array holds, at
  `(i, j)`, row `i` of the features against the left weights plus column `j` of the transposed features against the
  right weights plus the bias.
-/
import proofs.«171657_j76184129896629_1_alg».proof.Proof.Gen.KernelIdeal.Frame
import proofs.«171657_j76184129896629_1_alg».proof.Proof.Spec
import proofs.«171657_j76184129896629_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## One block's scores, entry by entry -/

/-- A column broadcast along its rows: an `a × 1` array read as `a × b` has, at `(p, c)`, the column's entry at
    row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The left product, a `1024 × 256` block against the `256 × 1` column of left weights, contracts the block's
    columns with the column's rows and has no batch axis: a plain matrix product. -/
theorem left_product_plain : dot_S1024x256_S256x1_S1024x1_1_0_0_1_n_n = DotDims.plain 1024 256 1 := rfl

/-- So is the right product, the `1 × 256` row of right weights against a `256 × 1024` block. -/
theorem right_product_plain : dot_S1x256_S256x1024_S1x1024_1_0_0_1_n_n = DotDims.plain 1 256 1024 := rfl

/-- The block of scores at `(r, q)`, from the five loaded blocks: row `r` of the features block against the left
    weights, the right weights against column `q` of the transposed block, and the bias. The left product is a
    column (one score per row) spread over the columns, the right product a row spread over the rows; the change
    of format before each product is the identity on extended reals, and each product starts from zeros. -/
theorem block_score_apply (x0 : Vec Ideal S1024x256 .f32) (x1 : Vec Ideal S256x1024 .f32) (x2 : Vec Ideal S256x1 .f32)
    (x3 : Vec Ideal S1x256 .f32) (x4 : Vec Ideal S1x1 .f32) (r q : Fin 1024) :
    k2_pay1 (F := Ideal) x0 x1 x2 x3 x4 (ix2 r q)
      = (∑ k : Fin 256, x0 (ix2 r k) * x2 (ix2 k 0)) + (∑ k : Fin 256, x3 (ix2 0 k) * x1 (ix2 k q)) + x4 (ix2 0 0) := by
  unfold k2_pay1
  refine (addf_apply _ _ _).trans ?_
  refine congrArg₂ (· + ·) ((addf_apply _ _ _).trans (congrArg₂ (· + ·) ?_ ?_)) ?_
  · -- the left product is a column: row `r` of the features block against the left weights
    refine (broadcastTo_a1_ab_apply _ _ r q).trans ?_
    rw [left_product_plain]
    refine (Cert.PlainMatmul.matmul_plain_zero_apply _ _ none r 0).trans ?_
    refine Finset.sum_congr rfl fun k _ => ?_
    rw [truncf_apply, truncf_apply, shapeCast_self, shapeCast_self]
  · -- the right product is a row: the right weights against column `q` of the transposed block
    refine (broadcastTo_1b_ab_apply _ _ r q).trans ?_
    rw [right_product_plain]
    refine (Cert.PlainMatmul.matmul_plain_zero_apply _ _ none 0 q).trans ?_
    refine Finset.sum_congr rfl fun k _ => ?_
    rw [truncf_apply, truncf_apply, shapeCast_self, shapeCast_self]
  · -- the bias is the one entry of its array
    refine (broadcast_apply _ _).trans ?_
    unfold extractAt
    exact congrArg x4 (funext fun a => Fin.ext (by match a with | ⟨0, _⟩ => rfl | ⟨1, _⟩ => rfl))

/-- The block's score at `(r, q)` is the score of the pair `(i, j)` once each loaded block is read where it sits in
    its array: row `r` of the features block is row `i` of the features, column `q` of the transposed block is
    column `j` of the transposed features, and the two weight arrays and the bias are loaded whole. -/
theorem block_score_eq_score (X : Cert.Gin.Mat 8192 256) (XT : Cert.Gin.Mat 256 8192) (wi : Cert.Gin.Mat 256 1)
    (wj : Cert.Gin.Mat 1 256) (b : Cert.Gin.Mat 1 1)
    (x0 : Vec Ideal S1024x256 .f32) (x1 : Vec Ideal S256x1024 .f32) (x2 : Vec Ideal S256x1 .f32)
    (x3 : Vec Ideal S1x256 .f32) (x4 : Vec Ideal S1x1 .f32) (i j : Fin 8192) (r q : Fin 1024)
    (h0 : ∀ k : Fin 256, x0 (ix2 r k) = X (ix2 i k)) (h1 : ∀ k : Fin 256, x1 (ix2 k q) = XT (ix2 k j))
    (h2 : ∀ k : Fin 256, x2 (ix2 k 0) = wi (ix2 k 0)) (h3 : ∀ k : Fin 256, x3 (ix2 0 k) = wj (ix2 0 k))
    (h4 : x4 (ix2 0 0) = b (ix2 0 0)) :
    k2_pay1 (F := Ideal) x0 x1 x2 x3 x4 (ix2 r q) = Cert.Gin.Sc2 X XT wi wj b (ix2 i j) := by
  refine (block_score_apply x0 x1 x2 x3 x4 r q).trans ?_
  rw [Cert.Gin.Sc2_apply, h4]
  refine congrArg₂ (· + ·) (congrArg₂ (· + ·) ?_ ?_) rfl
  · exact Finset.sum_congr rfl fun k _ => by rw [h0, h2]
  · exact Finset.sum_congr rfl fun k _ => by rw [h3, h1]

/-! ## From the 64 blocks to the array -/

variable (V : (c : Dev nD) → (b : Ref sig .tc) → Buf (Elt Ideal) ((c : Thread nD τ).loc b))

/-- The body reads and writes its whole blocks: every access starts at offset zero on both axes. -/
theorem offsets_zero : (![0, 0] : Fin 2 → Nat) = fun _ => 0 := funext fun a => by fin_cases a <;> rfl

/-- Where the blocks sit at each of the 64 points, relative to the output's block `(I, J)`: the features block is
    at `(I, 0)`, the transposed features block at `(0, J)`, the two weight arrays and the bias are the one block
    `(0, 0)` of their arrays, and `I`, `J` stay below 8. -/
theorem block_positions : ∀ t : Fin cfg2.N,
    win2_0.index t (0 : Fin 2) = win2_5.index t (0 : Fin 2) ∧ win2_0.index t (1 : Fin 2) = 0
    ∧ win2_1.index t (0 : Fin 2) = 0 ∧ win2_1.index t (1 : Fin 2) = win2_5.index t (1 : Fin 2)
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) ≤ 7 ∧ win2_5.index t (1 : Fin 2) ≤ 7 :=
  (by decide +kernel : ∀ t : Fin grid2.N, _)

/-- Every one of the 8 × 8 output blocks is some point's. -/
theorem every_block_visited : ∀ (I J : Fin 8), ∃ t : Fin cfg2.N, win2_5.index t = ![I.val, J.val] :=
  (by decide +kernel : ∀ (I J : Fin 8), ∃ t : Fin grid2.N, win2_5.index t = ![I.val, J.val])

/-- What point `t` writes back is its `1024 × 1024` block of the scores. Entry `(r, q)` of the output's block
    `(I, J)` is the pair `(1024 I + r, 1024 J + q)`; it reads row `1024 I + r` of the features through the features
    block `(I, 0)` and column `1024 J + q` of the transposed features through their block `(0, J)`. -/
theorem point_writes_scores (c : Dev nD) (t : Fin cfg2.N) :
    (dat2 (F := Ideal) V c).flushed 5 t = ((cfg2.win 5).blk t).view.read (Elt Ideal)
      (Cert.Gin.Sc2 (V c main_v30) (V c main_v31) (V c main_v32) (V c main_v34) (V c main_v35)) := by
  show (cfg2.win 5).cut (grid2.coords t) ((dat2 (F := Ideal) V c).after 5 t) = _
  rw [after2_5]
  unfold out2_5
  rw [View.canon_unit_zero offsets_zero]
  simp only [View.ld_unit_zero (S := S1024x256) offsets_zero, View.ld_unit_zero (S := S256x1024) offsets_zero,
    View.ld_unit_zero (S := S256x1) offsets_zero, View.ld_unit_zero (S := S1x256) offsets_zero,
    View.ld_unit_zero (S := S1x1) offsets_zero]
  funext j
  obtain ⟨r, q, rfl⟩ : ∃ (r q : Fin 1024), j = ix2 r q := ⟨j 0, j 1, eq_ix2 j⟩
  obtain ⟨e00, e01, e10, e11, e20, e21, e30, e31, e40, e41, b0, b1⟩ := block_positions t
  have hr : r.val < 1024 := r.isLt
  have hq : q.val < 1024 := q.isLt
  -- the pair this entry is the score of
  have hpair : ((cfg2.win 5).blk t).view.emb (ix2 r q)
      = ix2 (⟨win2_5.index t (0 : Fin 2) * 1024 + r.val, by omega⟩ : Fin 8192)
          (⟨win2_5.index t (1 : Fin 2) * 1024 + q.val, by omega⟩ : Fin 8192) := by
    funext a; apply Fin.ext
    match a with
    | ⟨0, _⟩ => show win2_5.index t (0 : Fin 2) * 1024 + 1 * r.val = win2_5.index t (0 : Fin 2) * 1024 + r.val; omega
    | ⟨1, _⟩ => show win2_5.index t (1 : Fin 2) * 1024 + 1 * q.val = win2_5.index t (1 : Fin 2) * 1024 + q.val; omega
  show k2_pay1 (F := Ideal) (iblk2 V c 0 t) (iblk2 V c 1 t) (iblk2 V c 2 t) (iblk2 V c 3 t) (iblk2 V c 4 t) (ix2 r q)
    = Cert.Gin.Sc2 (V c main_v30) (V c main_v31) (V c main_v32) (V c main_v34) (V c main_v35)
        (((cfg2.win 5).blk t).view.emb (ix2 r q))
  rw [hpair]
  refine block_score_eq_score (V c main_v30) (V c main_v31) (V c main_v32) (V c main_v34) (V c main_v35)
    (iblk2 V c 0 t) (iblk2 V c 1 t) (iblk2 V c 2 t) (iblk2 V c 3 t) (iblk2 V c 4 t) _ _ r q
    (fun k => ?_) (fun k => ?_) (fun k => ?_) (fun k => ?_) ?_
  · -- the features block follows the output's row block only
    have hk : k.val < 256 := k.isLt
    show V c main_v30 (((cfg2.win 0).blk t).view.emb (ix2 r k)) = V c main_v30 _
    refine congrArg (V c main_v30) (funext fun a => Fin.ext ?_)
    match a with
    | ⟨0, _⟩ => show win2_0.index t (0 : Fin 2) * 1024 + 1 * r.val = win2_5.index t (0 : Fin 2) * 1024 + r.val; omega
    | ⟨1, _⟩ => show win2_0.index t (1 : Fin 2) * 256 + 1 * k.val = k.val; omega
  · -- the transposed features block follows the output's column block only
    have hk : k.val < 256 := k.isLt
    show V c main_v31 (((cfg2.win 1).blk t).view.emb (ix2 k q)) = V c main_v31 _
    refine congrArg (V c main_v31) (funext fun a => Fin.ext ?_)
    match a with
    | ⟨0, _⟩ => show win2_1.index t (0 : Fin 2) * 256 + 1 * k.val = k.val; omega
    | ⟨1, _⟩ => show win2_1.index t (1 : Fin 2) * 1024 + 1 * q.val = win2_5.index t (1 : Fin 2) * 1024 + q.val; omega
  · -- the left weights are one block: the whole column
    have hk : k.val < 256 := k.isLt
    show V c main_v32 (((cfg2.win 2).blk t).view.emb (ix2 k 0)) = V c main_v32 _
    refine congrArg (V c main_v32) (funext fun a => Fin.ext ?_)
    match a with
    | ⟨0, _⟩ => show win2_2.index t (0 : Fin 2) * 256 + 1 * k.val = k.val; omega
    | ⟨1, _⟩ => show win2_2.index t (1 : Fin 2) * 1 + 1 * 0 = 0; omega
  · -- the right weights are one block: the whole row
    have hk : k.val < 256 := k.isLt
    show V c main_v34 (((cfg2.win 3).blk t).view.emb (ix2 0 k)) = V c main_v34 _
    refine congrArg (V c main_v34) (funext fun a => Fin.ext ?_)
    match a with
    | ⟨0, _⟩ => show win2_3.index t (0 : Fin 2) * 1 + 1 * 0 = 0; omega
    | ⟨1, _⟩ => show win2_3.index t (1 : Fin 2) * 256 + 1 * k.val = k.val; omega
  · -- the bias is one block of one entry
    show V c main_v35 (((cfg2.win 4).blk t).view.emb (ix2 0 0)) = V c main_v35 _
    refine congrArg (V c main_v35) (funext fun a => Fin.ext ?_)
    match a with
    | ⟨0, _⟩ => show win2_4.index t (0 : Fin 2) * 1 + 1 * 0 = 0; omega
    | ⟨1, _⟩ => show win2_4.index t (1 : Fin 2) * 1 + 1 * 0 = 0; omega

/-- A pair `(i, j)` is in point `t`'s output block iff each coordinate lies in the block's 1024 consecutive values
    on its axis. -/
theorem mem_score_block (t : Fin cfg2.N) (i : S8192x8192.Idx) :
    i ∈ ((cfg2.win 5).blk t).view.set ↔ ∀ a : Fin 2, win2_5.index t a * S1024x1024.size a ≤ (i a).val
      ∧ (i a).val < win2_5.index t a * S1024x1024.size a + S1024x1024.size a := by
  show i ∈ ((View.whole main_v36).slice (win2_5.rect t)).set ↔ _
  rw [View.set_slice_whole, Rect.mem_set_unit]
  exact Iff.rfl

/-- The 64 output blocks cover all pairs: `(i, j)` is in block `(i / 1024, j / 1024)`, and every point writes its
    block back. -/
theorem score_blocks_cover (i : S8192x8192.Idx) :
    ∃ t : Fin cfg2.N, (cfg2.win 5).flush t = true ∧ i ∈ ((cfg2.win 5).blk t).view.set := by
  have hi0 : (i 0).val < 8192 := (i 0).isLt
  have hi1 : (i 1).val < 8192 := (i 1).isLt
  obtain ⟨t, ht⟩ := every_block_visited ⟨(i 0).val / 1024, by omega⟩ ⟨(i 1).val / 1024, by omega⟩
  have q0 : win2_5.index t (0 : Fin 2) = (i 0).val / 1024 := congrFun ht 0
  have q1 : win2_5.index t (1 : Fin 2) = (i 1).val / 1024 := congrFun ht 1
  refine ⟨t, flush2_5 t, ?_⟩
  rw [mem_score_block]
  intro a
  match a with
  | ⟨0, _⟩ => show win2_5.index t (0 : Fin 2) * 1024 ≤ (i 0).val ∧ (i 0).val < win2_5.index t (0 : Fin 2) * 1024 + 1024; omega
  | ⟨1, _⟩ => show win2_5.index t (1 : Fin 2) * 1024 ≤ (i 1).val ∧ (i 1).val < win2_5.index t (1 : Fin 2) * 1024 + 1024; omega

/-- The output array of the edge-score region, after its 64 points, is `Cert.Gin.Sc2` of what the region found: the
    features, their transpose, the left weights as a column, the right weights as a row and the bias as a `1 × 1` array. -/
theorem final2 (c : Dev nD) :
    (dat2 (F := Ideal) V c).arrAt 5 cfg2.N =
      Cert.Gin.Sc2 (V c main_v30) (V c main_v31) (V c main_v32) (V c main_v34) (V c main_v35) :=
  (dat2 (F := Ideal) V c).arrAt_eq_of_cover 5
    (Cert.Gin.Sc2 (V c main_v30) (V c main_v31) (V c main_v32) (V c main_v34) (V c main_v35))
    (fun t _ => point_writes_scores V c t) score_blocks_cover

end Cert.KernelIdeal.Region2

end
-- ==== Proof.KHost0.lean ====
/-
  The host operations before the first kernel: what each operand of the first layer's region holds when the region
  is entered, as a function of @main's arguments.  The neighbour sums are one gather (rows of the features at the
  edges' sources, a negative source wrapped by the row count) followed by one scatter-add into zeros (at the edges'
  targets); they are named here as functions of the features and the edge list and never opened.
-/
import proofs.«171657_j76184129896629_1_alg».proof.Proof.Gen.KernelIdeal.Frame
import Idealize.ShloMosaic.Lib.StableHlo.Run
import Idealize.ShloMosaic.PureOps.Ideal.Laws

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen

/-- The edges' sources: row 0 of the edge list, as a vector. -/
def srcRow (e : (⟨S2x131072, .i32⟩ : BufTy).Contents (Elt Ideal)) : (⟨S131072, .i32⟩ : BufTy).Contents (Elt Ideal) :=
  shapeCast S131072 (extractStridedSlice S1x131072 ![0, 0] e slices_S2x131072_S1x131072_0_0) shapeCasts_S1x131072_S131072

/-- The edges' targets: row 1 of the edge list, as a vector. -/
def dstRow (e : (⟨S2x131072, .i32⟩ : BufTy).Contents (Elt Ideal)) : (⟨S131072, .i32⟩ : BufTy).Contents (Elt Ideal) :=
  shapeCast S131072 (extractStridedSlice S1x131072 ![1, 0] e slices_S2x131072_S1x131072_1_0) shapeCasts_S1x131072_S131072

/-- The gather's start indices: each source, with the row count 8192 added when it is negative, as a column. -/
def srcIdx (e : (⟨S2x131072, .i32⟩ : BufTy).Contents (Elt Ideal)) : (⟨S131072x1, .i32⟩ : BufTy).Contents (Elt Ideal) :=
  broadcastInDim S131072x1 ![0] bcast_S131072_S131072x1_0
    (select (cmpi .slt (srcRow e) (broadcastInDim S131072 ![] bcast_S_S131072 (constantI S_ 32 0#32)))
      (addi (srcRow e) (broadcastInDim S131072 ![] bcast_S_S131072 (constantI S_ 32 8192#32)))
      (srcRow e))

/-- The scatter's indices: each target, as a column. -/
def dstIdx (e : (⟨S2x131072, .i32⟩ : BufTy).Contents (Elt Ideal)) : (⟨S131072x1, .i32⟩ : BufTy).Contents (Elt Ideal) :=
  broadcastInDim S131072x1 ![0] bcast_S131072_S131072x1_0 (dstRow e)

/-- The neighbour sums of 128-wide features `x` along the edges `e`. -/
def nbrK0 (x : (⟨S8192x128, .f32⟩ : BufTy).Contents (Elt Ideal)) (e : (⟨S2x131072, .i32⟩ : BufTy).Contents (Elt Ideal)) :
    (⟨S8192x128, .f32⟩ : BufTy).Contents (Elt Ideal) :=
  Host.scatterAdd (F := Ideal) (φ := .f32) scatter_S8192x128_S131072x1_S131072x128_1_0_0_1
    (broadcastInDim S8192x128 ![] bcast_S_S8192x128 (constant (F := Ideal) S_ .f32 0x00000000#32)) (dstIdx e)
    (Host.gather (α := Ideal .f32) gather_S8192x128_S131072x1_S131072x128_1_0_n_n_0_1_1128 x (srcIdx e))

/-- The neighbour sums of 256-wide features `y` along the edges `e`. -/
def nbrK1 (y : (⟨S8192x256, .f32⟩ : BufTy).Contents (Elt Ideal)) (e : (⟨S2x131072, .i32⟩ : BufTy).Contents (Elt Ideal)) :
    (⟨S8192x256, .f32⟩ : BufTy).Contents (Elt Ideal) :=
  Host.scatterAdd (F := Ideal) (φ := .f32) scatter_S8192x256_S131072x1_S131072x256_1_0_0_1
    (broadcastInDim S8192x256 ![] bcast_S_S8192x256 (constant (F := Ideal) S_ .f32 0x00000000#32)) (dstIdx e)
    (Host.gather (α := Ideal .f32) gather_S8192x256_S131072x1_S131072x256_1_0_n_n_0_1_1256 y (srcIdx e))

variable (m : (ℓ : Loc nD τ sig) → Buf (Elt Ideal) ℓ) (ρ : Dev nD → PrngReg)

/-- The sources, as the first stretch of host operations leaves them. -/
theorem W1_v1 (c : Dev nD) : W1 m ρ c (Proc.devRef .tc main_v1) = srcRow (m ((c : Thread nD τ).loc main_arg1)) := by
  show StableHlo.after hostOps0 (W0 m ρ c) (Proc.devRef .tc main_v1) = _
  after_results
  rfl

/-- The targets, as the first stretch of host operations leaves them. -/
theorem W1_v3 (c : Dev nD) : W1 m ρ c (Proc.devRef .tc main_v3) = dstRow (m ((c : Thread nD τ).loc main_arg1)) := by
  show StableHlo.after hostOps0 (W0 m ρ c) (Proc.devRef .tc main_v3) = _
  after_results
  rfl

/-- The first region finds the node features as launched. -/
theorem V1_arg0 (c : Dev nD) : V1 m ρ c main_arg0 = m ((c : Thread nD τ).loc main_arg0) := by
  show StableHlo.after hostOps0 (W0 m ρ c) (Proc.devRef .tc main_arg0) = _
  after_results

/-- The first region finds the neighbour sums of the launched features. -/
theorem V1_v13 (c : Dev nD) : V1 m ρ c main_v13 = nbrK0 (m ((c : Thread nD τ).loc main_arg0)) (m ((c : Thread nD τ).loc main_arg1)) := by
  show StableHlo.after hostOps0 (W0 m ρ c) (Proc.devRef .tc main_v13) = _
  after_results
  rfl

/-- The first region finds the first weight matrix as launched. -/
theorem V1_arg2 (c : Dev nD) : V1 m ρ c main_arg2 = m ((c : Thread nD τ).loc main_arg2) := by
  show StableHlo.after hostOps0 (W0 m ρ c) (Proc.devRef .tc main_arg2) = _
  after_results

/-- The first region finds the first bias as a `1 × 256` row. -/
theorem V1_v14 (c : Dev nD) : V1 m ρ c main_v14 = shapeCast S1x256 (m ((c : Thread nD τ).loc main_arg3)) shapeCasts_S256_S1x256 := by
  show StableHlo.after hostOps0 (W0 m ρ c) (Proc.devRef .tc main_v14) = _
  after_results
  rfl

/-- The first region finds the second weight matrix as launched. -/
theorem V1_arg4 (c : Dev nD) : V1 m ρ c main_arg4 = m ((c : Thread nD τ).loc main_arg4) := by
  show StableHlo.after hostOps0 (W0 m ρ c) (Proc.devRef .tc main_arg4) = _
  after_results

/-- The first region finds the second bias as a `1 × 256` row. -/
theorem V1_v15 (c : Dev nD) : V1 m ρ c main_v15 = shapeCast S1x256 (m ((c : Thread nD τ).loc main_arg5)) shapeCasts_S256_S1x256 := by
  show StableHlo.after hostOps0 (W0 m ρ c) (Proc.devRef .tc main_v15) = _
  after_results
  rfl

end Cert.KernelIdeal.Host

end
-- ==== Proof.KHost1.lean ====
/-
  The host operations between the first and the second kernel: what each operand of the second layer's region holds
  when the region is entered.  The features are the first region's output; the neighbour sums are the same gather and
  scatter-add of them along the same edges; weights and biases are @main's arguments, the biases as `1 × 256` rows.
-/
import proofs.«171657_j76184129896629_1_alg».proof.Proof.Gen.KernelIdeal.Frame
import proofs.«171657_j76184129896629_1_alg».proof.Proof.KHost0
import Idealize.ShloMosaic.Lib.StableHlo.Run
import Idealize.ShloMosaic.PureOps.Ideal.Laws

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The sources survive the first region: it writes none of them. -/
theorem W2_v1 (c : Dev nD) : W2 m ρ c (Proc.devRef .tc main_v1) = srcRow (m ((c : Thread nD τ).loc main_arg1)) :=
  (W2_of_ne m ρ c main_v1 (by decide)).trans (W1_v1 m ρ c)

/-- The targets survive the first region. -/
theorem W2_v3 (c : Dev nD) : W2 m ρ c (Proc.devRef .tc main_v3) = dstRow (m ((c : Thread nD τ).loc main_arg1)) :=
  (W2_of_ne m ρ c main_v3 (by decide)).trans (W1_v3 m ρ c)

/-- Argument 6 is untouched by the first stretch of host operations and by the first region. -/
theorem W2_arg6 (c : Dev nD) : W2 m ρ c (Proc.devRef .tc main_arg6) = m ((c : Thread nD τ).loc main_arg6) := by
  refine (W2_of_ne m ρ c main_arg6 (by decide)).trans ?_
  show StableHlo.after hostOps0 (W0 m ρ c) (Proc.devRef .tc main_arg6) = _
  after_results

/-- Argument 7 is untouched by the first stretch of host operations and by the first region. -/
theorem W2_arg7 (c : Dev nD) : W2 m ρ c (Proc.devRef .tc main_arg7) = m ((c : Thread nD τ).loc main_arg7) := by
  refine (W2_of_ne m ρ c main_arg7 (by decide)).trans ?_
  show StableHlo.after hostOps0 (W0 m ρ c) (Proc.devRef .tc main_arg7) = _
  after_results

/-- Argument 8 is untouched by the first stretch of host operations and by the first region. -/
theorem W2_arg8 (c : Dev nD) : W2 m ρ c (Proc.devRef .tc main_arg8) = m ((c : Thread nD τ).loc main_arg8) := by
  refine (W2_of_ne m ρ c main_arg8 (by decide)).trans ?_
  show StableHlo.after hostOps0 (W0 m ρ c) (Proc.devRef .tc main_arg8) = _
  after_results

/-- Argument 9 is untouched by the first stretch of host operations and by the first region. -/
theorem W2_arg9 (c : Dev nD) : W2 m ρ c (Proc.devRef .tc main_arg9) = m ((c : Thread nD τ).loc main_arg9) := by
  refine (W2_of_ne m ρ c main_arg9 (by decide)).trans ?_
  show StableHlo.after hostOps0 (W0 m ρ c) (Proc.devRef .tc main_arg9) = _
  after_results

/-- Argument 10 is untouched by the first stretch of host operations and by the first region. -/
theorem W2_arg10 (c : Dev nD) : W2 m ρ c (Proc.devRef .tc main_arg10) = m ((c : Thread nD τ).loc main_arg10) := by
  refine (W2_of_ne m ρ c main_arg10 (by decide)).trans ?_
  show StableHlo.after hostOps0 (W0 m ρ c) (Proc.devRef .tc main_arg10) = _
  after_results

/-- Argument 11 is untouched by the first stretch of host operations and by the first region. -/
theorem W2_arg11 (c : Dev nD) : W2 m ρ c (Proc.devRef .tc main_arg11) = m ((c : Thread nD τ).loc main_arg11) := by
  refine (W2_of_ne m ρ c main_arg11 (by decide)).trans ?_
  show StableHlo.after hostOps0 (W0 m ρ c) (Proc.devRef .tc main_arg11) = _
  after_results

/-- The second region finds the first region's output as its features. -/
theorem V3_v16 (c : Dev nD) : V3 m ρ c main_v16 = W2 m ρ c (Proc.devRef .tc main_v16) := by
  show StableHlo.after hostOps1 (W2 m ρ c) (Proc.devRef .tc main_v16) = _
  after_results

/-- The second region finds the neighbour sums of the first region's output. -/
theorem V3_v26 (c : Dev nD) : V3 m ρ c main_v26 = nbrK1 (W2 m ρ c (Proc.devRef .tc main_v16)) (m ((c : Thread nD τ).loc main_arg1)) := by
  show StableHlo.after hostOps1 (W2 m ρ c) (Proc.devRef .tc main_v26) = _
  after_results
  rw [W2_v1, W2_v3]
  rfl

/-- The second region finds weight matrix argument 6 as launched. -/
theorem V3_arg6 (c : Dev nD) : V3 m ρ c main_arg6 = m ((c : Thread nD τ).loc main_arg6) := by
  show StableHlo.after hostOps1 (W2 m ρ c) (Proc.devRef .tc main_arg6) = _
  after_results
  exact W2_arg6 m ρ c

/-- The second region finds weight matrix argument 8 as launched. -/
theorem V3_arg8 (c : Dev nD) : V3 m ρ c main_arg8 = m ((c : Thread nD τ).loc main_arg8) := by
  show StableHlo.after hostOps1 (W2 m ρ c) (Proc.devRef .tc main_arg8) = _
  after_results
  exact W2_arg8 m ρ c

/-- The second region finds weight matrix argument 10 as launched. -/
theorem V3_arg10 (c : Dev nD) : V3 m ρ c main_arg10 = m ((c : Thread nD τ).loc main_arg10) := by
  show StableHlo.after hostOps1 (W2 m ρ c) (Proc.devRef .tc main_arg10) = _
  after_results
  exact W2_arg10 m ρ c

/-- The second region finds bias argument 7 as a `1 × 256` row. -/
theorem V3_v27 (c : Dev nD) : V3 m ρ c main_v27 = shapeCast S1x256 (m ((c : Thread nD τ).loc main_arg7)) shapeCasts_S256_S1x256 := by
  show StableHlo.after hostOps1 (W2 m ρ c) (Proc.devRef .tc main_v27) = _
  after_results
  rw [W2_arg7]
  rfl

/-- The second region finds bias argument 9 as a `1 × 256` row. -/
theorem V3_v28 (c : Dev nD) : V3 m ρ c main_v28 = shapeCast S1x256 (m ((c : Thread nD τ).loc main_arg9)) shapeCasts_S256_S1x256 := by
  show StableHlo.after hostOps1 (W2 m ρ c) (Proc.devRef .tc main_v28) = _
  after_results
  rw [W2_arg9]
  rfl

/-- The second region finds bias argument 11 as a `1 × 256` row. -/
theorem V3_v29 (c : Dev nD) : V3 m ρ c main_v29 = shapeCast S1x256 (m ((c : Thread nD τ).loc main_arg11)) shapeCasts_S256_S1x256 := by
  show StableHlo.after hostOps1 (W2 m ρ c) (Proc.devRef .tc main_v29) = _
  after_results
  rw [W2_arg11]
  rfl

end Cert.KernelIdeal.Host

end
-- ==== Proof.KHost2.lean ====
/-
  The host operations between the second and the third kernel: what each operand of the edge-score region holds when
  the region is entered.  The features are the second region's output, once as they are and once transposed; the left
  weights are rows 0 to 255 of the edge weight column, the right weights rows 256 to 511 transposed into a row; the
  bias is the one-entry vector as a `1 × 1` matrix.
-/
import proofs.«171657_j76184129896629_1_alg».proof.Proof.Gen.KernelIdeal.Frame
import Idealize.ShloMosaic.Lib.StableHlo.Run
import Idealize.ShloMosaic.PureOps.Ideal.Laws

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- Argument 12 is untouched by every host operation and region before the third kernel. -/
theorem W4_arg12 (c : Dev nD) : W4 m ρ c (Proc.devRef .tc main_arg12) = m ((c : Thread nD τ).loc main_arg12) := by
  refine (W4_of_ne m ρ c main_arg12 (by decide)).trans ?_
  show StableHlo.after hostOps1 (W2 m ρ c) (Proc.devRef .tc main_arg12) = _
  after_results
  refine (W2_of_ne m ρ c main_arg12 (by decide)).trans ?_
  show StableHlo.after hostOps0 (W0 m ρ c) (Proc.devRef .tc main_arg12) = _
  after_results

/-- Argument 13 is untouched by every host operation and region before the third kernel. -/
theorem W4_arg13 (c : Dev nD) : W4 m ρ c (Proc.devRef .tc main_arg13) = m ((c : Thread nD τ).loc main_arg13) := by
  refine (W4_of_ne m ρ c main_arg13 (by decide)).trans ?_
  show StableHlo.after hostOps1 (W2 m ρ c) (Proc.devRef .tc main_arg13) = _
  after_results
  refine (W2_of_ne m ρ c main_arg13 (by decide)).trans ?_
  show StableHlo.after hostOps0 (W0 m ρ c) (Proc.devRef .tc main_arg13) = _
  after_results

/-- The third region finds the second region's output as its features. -/
theorem V5_v30 (c : Dev nD) : V5 m ρ c main_v30 = W4 m ρ c (Proc.devRef .tc main_v30) := by
  show StableHlo.after hostOps2 (W4 m ρ c) (Proc.devRef .tc main_v30) = _
  after_results

/-- … and their transpose. -/
theorem V5_v31 (c : Dev nD) :
    V5 m ρ c main_v31 = transpose S256x8192 [1, 0] (W4 m ρ c (Proc.devRef .tc main_v30)) transposes_S8192x256_S256x8192_1_0 := by
  show StableHlo.after hostOps2 (W4 m ρ c) (Proc.devRef .tc main_v31) = _
  after_results

/-- The left weights: the upper half of the edge weight column. -/
theorem V5_v32 (c : Dev nD) :
    V5 m ρ c main_v32 = extractStridedSlice S256x1 ![0, 0] (m ((c : Thread nD τ).loc main_arg12)) slices_S512x1_S256x1_0_0 := by
  show StableHlo.after hostOps2 (W4 m ρ c) (Proc.devRef .tc main_v32) = _
  after_results
  rw [W4_arg12]

/-- The right weights: the lower half of the edge weight column, as a row. -/
theorem V5_v34 (c : Dev nD) :
    V5 m ρ c main_v34 = transpose S1x256 [1, 0]
      (extractStridedSlice S256x1 ![256, 0] (m ((c : Thread nD τ).loc main_arg12)) slices_S512x1_S256x1_256_0) transposes_S256x1_S1x256_1_0 := by
  show StableHlo.after hostOps2 (W4 m ρ c) (Proc.devRef .tc main_v34) = _
  after_results
  rw [W4_arg12]

/-- The bias as a `1 × 1` matrix. -/
theorem V5_v35 (c : Dev nD) : V5 m ρ c main_v35 = shapeCast S1x1 (m ((c : Thread nD τ).loc main_arg13)) shapeCasts_S1_S1x1 := by
  show StableHlo.after hostOps2 (W4 m ρ c) (Proc.devRef .tc main_v35) = _
  after_results
  rw [W4_arg13]
  rfl

end Cert.KernelIdeal.Host

end
-- ==== Proof.Glue.lean ====
/-
  Small facts joining the layouts the kernels' operands arrive in to the specification's plain vectors and matrices:
  a vector cast to a one-row matrix has that vector as its row; and the edge scores computed from the features and
  their transpose, with the weight column cut in two halves (the lower one transposed into a row) and the bias as a
  `1 × 1` matrix, are the specification's edge scores — the two sides differ by the order of the factors in the
  second sum, and multiplication of extended reals commutes.
-/
import proofs.«171657_j76184129896629_1_alg».proof.Proof.Spec
import Idealize.ShloMosaic.Lib.Pipeline.Value
import Idealize.ShloMosaic.Lib.ValueLayout

noncomputable section

open scoped BigOperators

namespace Cert.Gin

open Idealize.ShloMosaic Idealize.ShloMosaic.ValueIdx

/-- A length-`N` vector cast to a `1 × N` matrix: its one row is the vector. -/
theorem row0_shapeCast {N : ℕ} (b : Vec1 N) (h : (⟨1, ![N]⟩ : Shape).ShapeCasts ⟨2, ![1, N]⟩) :
    row0 (shapeCast ⟨2, ![1, N]⟩ b h) = v1 b :=
  funext fun j => shapeCast_a_1a_apply b h 0 j

/-- The third kernel's edge scores are the specification's: the left weights are rows 0 to 255 of the weight column,
    the right weights rows 256 to 511 (read through a transpose), the transposed features read back at `(j, k)`, and
    `w * z = z * w` in each term of the second sum. -/
theorem Sc2_eq_Sc (Z : Mat 8192 256) (w : Mat 512 1) (b : Vec1 1)
    (h1 : (⟨2, ![8192, 256]⟩ : Shape).Transposes [1, 0] ⟨2, ![256, 8192]⟩)
    (h2 : (⟨2, ![512, 1]⟩ : Shape).Slices ![0, 0] ⟨2, ![256, 1]⟩)
    (h3 : (⟨2, ![512, 1]⟩ : Shape).Slices ![256, 0] ⟨2, ![256, 1]⟩)
    (h4 : (⟨2, ![256, 1]⟩ : Shape).Transposes [1, 0] ⟨2, ![1, 256]⟩)
    (h5 : (⟨1, ![1]⟩ : Shape).ShapeCasts ⟨2, ![1, 1]⟩) :
    Sc2 Z (transpose ⟨2, ![256, 8192]⟩ [1, 0] Z h1) (extractStridedSlice ⟨2, ![256, 1]⟩ ![0, 0] w h2)
        (transpose ⟨2, ![1, 256]⟩ [1, 0] (extractStridedSlice ⟨2, ![256, 1]⟩ ![256, 0] w h3) h4)
        (shapeCast ⟨2, ![1, 1]⟩ b h5)
      = Sc Z (wlo w) (whi w) (b (ix1 0)) := by
  funext i
  obtain ⟨p, q, rfl⟩ : ∃ (p q : Fin 8192), i = ix2 p q := ⟨i 0, i 1, eq_ix2 i⟩
  rw [Sc2_apply, Sc_apply]
  have e1 : ∀ k : Fin 256, extractStridedSlice ⟨2, ![256, 1]⟩ ![0, 0] w h2 (ix2 k 0) = wlo w k := fun k =>
    slice2_axis0_apply 0 w h2 k 0 ⟨k.val, by have := k.isLt; omega⟩ (Nat.zero_add _).symm
  have e2 : ∀ k : Fin 256,
      transpose ⟨2, ![1, 256]⟩ [1, 0] (extractStridedSlice ⟨2, ![256, 1]⟩ ![256, 0] w h3) h4 (ix2 0 k) = whi w k := fun k =>
    (transpose_ix2_apply _ h4 0 k).trans
      (slice2_axis0_apply 256 w h3 k 0 ⟨k.val + 256, by have := k.isLt; omega⟩ (Nat.add_comm _ _))
  have e3 : ∀ k : Fin 256, transpose ⟨2, ![256, 8192]⟩ [1, 0] Z h1 (ix2 k q) = Z (ix2 q k) := fun k =>
    transpose_ix2_apply Z h1 k q
  have e4 : shapeCast ⟨2, ![1, 1]⟩ b h5 (ix2 0 0) = b (ix1 0) := shapeCast_a_1a_apply b h5 0 0
  rw [e4]
  refine congrArg (· + b (ix1 0)) ?_
  refine congrArg₂ (· + ·) (Finset.sum_congr rfl fun k _ => by rw [e1 k]) (Finset.sum_congr rfl fun k _ => ?_)
  rw [e2 k, e3 k, mul_comm]

end Cert.Gin

end
-- ==== Proof.KValue.lean ====
/-
  The kernel program's result as the specification's whole computation of its arguments.  Region by region: each
  region's output array is the specification's layer (or edge score) of what the region found; what it found is the
  previous region's output, the neighbour sums of that output, and @main's arguments read through the host operations
  in between.  The run of the program then ends with the result array at that value and the arguments unchanged.
-/
import proofs.«171657_j76184129896629_1_alg».proof.Proof.KRun
import proofs.«171657_j76184129896629_1_alg».proof.Proof.KRegion0
import proofs.«171657_j76184129896629_1_alg».proof.Proof.KRegion1
import proofs.«171657_j76184129896629_1_alg».proof.Proof.KRegion2
import proofs.«171657_j76184129896629_1_alg».proof.Proof.KHost0
import proofs.«171657_j76184129896629_1_alg».proof.Proof.KHost1
import proofs.«171657_j76184129896629_1_alg».proof.Proof.KHost2
import proofs.«171657_j76184129896629_1_alg».proof.Proof.Glue

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen Cert.KernelIdeal.Host

variable (m : (ℓ : Loc nD τ sig) → Buf (Elt Ideal) ℓ) (ρ : Dev nD → PrngReg)

/-- The first layer's output on core `c`, as the specification's first layer of the arguments. -/
def Y (c : Dev nD) : Cert.Gin.Mat 8192 256 :=
  Cert.Gin.L0 (m ((c : Thread nD τ).loc main_arg0)) (nbrK0 (m ((c : Thread nD τ).loc main_arg0)) (m ((c : Thread nD τ).loc main_arg1))) (m ((c : Thread nD τ).loc main_arg2)) (Cert.Gin.v1 (m ((c : Thread nD τ).loc main_arg3))) (m ((c : Thread nD τ).loc main_arg4)) (Cert.Gin.v1 (m ((c : Thread nD τ).loc main_arg5)))

/-- The second layer's output on core `c`. -/
def Z (c : Dev nD) : Cert.Gin.Mat 8192 256 :=
  Cert.Gin.L1 (Y m c) (nbrK1 (Y m c) (m ((c : Thread nD τ).loc main_arg1))) (m ((c : Thread nD τ).loc main_arg6)) (Cert.Gin.v1 (m ((c : Thread nD τ).loc main_arg7))) (m ((c : Thread nD τ).loc main_arg8)) (Cert.Gin.v1 (m ((c : Thread nD τ).loc main_arg9)))
    (m ((c : Thread nD τ).loc main_arg10)) (Cert.Gin.v1 (m ((c : Thread nD τ).loc main_arg11)))

/-- After the first region its output array holds the first layer of the arguments. -/
theorem W2_v16 (c : Dev nD) : W2 m ρ c (Proc.devRef .tc main_v16) = Y m c := by
  refine (W2_arr m ρ c 6).trans ?_
  rw [Cert.KernelIdeal.Region0.final0 (V1 m ρ) c, V1_arg0, V1_v13, V1_arg2, V1_v14, V1_arg4, V1_v15,
    Cert.Gin.row0_shapeCast, Cert.Gin.row0_shapeCast]
  rfl

/-- After the second region its output array holds the second layer of the first layer's output. -/
theorem W4_v30 (c : Dev nD) : W4 m ρ c (Proc.devRef .tc main_v30) = Z m c := by
  refine (W4_arr m ρ c 8).trans ?_
  rw [Cert.KernelIdeal.Region1.final1 (V3 m ρ) c, V3_v16, V3_v26, V3_arg6, V3_v27, V3_arg8, V3_v28, V3_arg10, V3_v29,
    W2_v16, Cert.Gin.row0_shapeCast, Cert.Gin.row0_shapeCast, Cert.Gin.row0_shapeCast]
  rfl

/-- After the third region the result array holds the edge scores of the second layer's output. -/
theorem W6_v36 (c : Dev nD) :
    W6 m ρ c (Proc.devRef .tc main_v36)
      = Cert.Gin.Sc (Z m c) (Cert.Gin.wlo (m ((c : Thread nD τ).loc main_arg12))) (Cert.Gin.whi (m ((c : Thread nD τ).loc main_arg12))) ((m ((c : Thread nD τ).loc main_arg13)) (ix1 0)) := by
  refine (W6_arr m ρ c 5).trans ?_
  rw [Cert.KernelIdeal.Region2.final2 (V5 m ρ) c, V5_v30, V5_v31, V5_v32, V5_v34, V5_v35, W4_v30]
  exact Cert.Gin.Sc2_eq_Sc (Z m c) (m ((c : Thread nD τ).loc main_arg12)) (m ((c : Thread nD τ).loc main_arg13)) _ _ _ _ _

/-- The result on core `c`: the whole computation of the arguments, with this program's neighbour sums. -/
def result (c : Dev nD) : Cert.Gin.Mat 8192 8192 :=
  Cert.Gin.Total (fun x => nbrK0 x (m ((c : Thread nD τ).loc main_arg1))) (fun y => nbrK1 y (m ((c : Thread nD τ).loc main_arg1)))
    (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

theorem W6_v36_result (c : Dev nD) : W6 m ρ c (Proc.devRef .tc main_v36) = result m c :=
  W6_v36 m ρ c

/-- Every weakly fair execution of the kernel program terminates, nothing faulting, with the result array at the
    specification's value of the arguments and the arguments unchanged. -/
theorem run : θ_run defs (onTc (τ := τ) (main (F := Ideal))) ⟨m, fun _ => 0, ρ⟩ (fun r => ∀ c : Dev nD,
      r.2.mem ((c.tc : Thread nD τ).loc main_v36) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c).1.trans (W6_v36_result m ρ c), (h c).2⟩) (Cert.KernelIdeal.Run.run_named m ρ)

end Cert.KernelIdeal.KValue

end
-- ==== Proof.RefSpec.lean ====
/-
  The reference program's stages, read as the mathematics of `Cert.Gin`: its first layer, its second layer with the
  closing affine map, and its edge scores, each index by index; then the whole result as `Cert.Gin.Total` of the
  arguments.  The two neighbour sums (a gather followed by a scatter-add) are carried as functions and never opened.
-/
import proofs.«171657_j76184129896629_1_alg».proof.Proof.Gen.ReferenceIdeal.Read
import proofs.«171657_j76184129896629_1_alg».proof.Proof.Spec
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws

set_option maxRecDepth 16384

noncomputable section

open scoped BigOperators

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Read

/-- The first layer's neighbour sums of node features `x` along the edges `e`: the reference's own stage. -/
def nbr0 (x : (⟨S8192x128, .f32⟩ : BufTy).Contents (Elt Ideal)) (e : (⟨S2x131072, .i32⟩ : BufTy).Contents (Elt Ideal)) :
    (⟨S8192x128, .f32⟩ : BufTy).Contents (Elt Ideal) :=
  val_main_v13 (F := Ideal) x e

/-- The second layer's neighbour sums of node features `y` along the edges `e`: the reference's gather and
    scatter-add, applied to any features. -/
def nbr1 (y : (⟨S8192x256, .f32⟩ : BufTy).Contents (Elt Ideal)) (e : (⟨S2x131072, .i32⟩ : BufTy).Contents (Elt Ideal)) :
    (⟨S8192x256, .f32⟩ : BufTy).Contents (Elt Ideal) :=
  Host.scatterAdd (F := Ideal) (φ := .f32) scatter_S8192x256_S131072x1_S131072x256_1_0_0_1 (val_main_v32 (F := Ideal)) (val_main_v33 (F := Ideal) e)
    (Host.gather (α := Ideal .f32) gather_S8192x256_S131072x1_S131072x256_1_0_n_n_0_1_1256 y (val_main_v30 (F := Ideal) e))

variable (x0 : (⟨S8192x128, .f32⟩ : BufTy).Contents (Elt Ideal)) (x1 : (⟨S2x131072, .i32⟩ : BufTy).Contents (Elt Ideal)) (x2 : (⟨S128x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal)) (x10 : (⟨S256x256, .f32⟩ : BufTy).Contents (Elt Ideal)) (x11 : (⟨S256, .f32⟩ : BufTy).Contents (Elt Ideal)) (x12 : (⟨S512x1, .f32⟩ : BufTy).Contents (Elt Ideal)) (x13 : (⟨S1, .f32⟩ : BufTy).Contents (Elt Ideal))

/-- The reference's second neighbour sum is `nbr1` of its first layer's output. -/
theorem v34_eq : val_main_v34 (F := Ideal) x0 x1 x2 x3 x4 x5 = nbr1 (val_main_v24 (F := Ideal) x0 x1 x2 x3 x4 x5) x1 := by
  unfold val_main_v34 val_main_v31 nbr1
  rfl

/-- The first affine map and `relu` of the first layer, at a node and a hidden feature. -/
theorem hidden0_apply (p : Fin 8192) (k : Fin 256) :
    val_main_v19 (F := Ideal) x0 x1 x2 x3 (ix2 p k) =
      Cert.Gin.act (Cert.Gin.lin (fun l => x0 (ix2 p l) + nbr0 x0 x1 (ix2 p l)) x2 (Cert.Gin.v1 x3)) k := by
  have el : ∀ l : Fin 128, lidx_main_v15 (ix2 p k) l = ix2 p l := fun l =>
    funext fun a => Fin.ext (by match a with | ⟨0, _⟩ => rfl | ⟨1, _⟩ => rfl)
  have er : ∀ l : Fin 128, ridx_main_v15 (ix2 p k) l = ix2 l k := fun l =>
    funext fun a => Fin.ext (by match a with | ⟨0, _⟩ => rfl | ⟨1, _⟩ => rfl)
  have eb : idx_main_v16 (idx_main_v17 (ix2 p k)) = ix1 k :=
    funext fun a => Fin.ext (by match a with | ⟨0, _⟩ => rfl)
  rw [val_main_v19_apply, val_main_v18_apply, val_main_v15_apply, val_main_v17_apply, val_main_v16_apply,
    val_main_call0_v0_apply, val_main_call0_cst_apply, eb]
  simp only [el, er, val_main_v14_apply, Ideal.addf_def, Ideal.maximumf_def, Ideal.ofBits_def]
  rfl

/-- The reference's first layer is `Cert.Gin.L0` of the features and their neighbour sums. -/
theorem layer0_eq :
    val_main_v24 (F := Ideal) x0 x1 x2 x3 x4 x5 = Cert.Gin.L0 x0 (nbr0 x0 x1) x2 (Cert.Gin.v1 x3) x4 (Cert.Gin.v1 x5) := by
  funext i
  obtain ⟨p, q, rfl⟩ : ∃ (p : Fin 8192) (q : Fin 256), i = ix2 p q := ⟨i 0, i 1, eq_ix2 i⟩
  have el : ∀ k : Fin 256, lidx_main_v20 (ix2 p q) k = ix2 p k := fun k =>
    funext fun a => Fin.ext (by match a with | ⟨0, _⟩ => rfl | ⟨1, _⟩ => rfl)
  have er : ∀ k : Fin 256, ridx_main_v20 (ix2 p q) k = ix2 k q := fun k =>
    funext fun a => Fin.ext (by match a with | ⟨0, _⟩ => rfl | ⟨1, _⟩ => rfl)
  have eb : idx_main_v21 (idx_main_v22 (ix2 p q)) = ix1 q :=
    funext fun a => Fin.ext (by match a with | ⟨0, _⟩ => rfl)
  rw [Cert.Gin.L0_apply, val_main_v24_apply, val_main_v23_apply, val_main_v20_apply, val_main_v22_apply,
    val_main_v21_apply, val_main_call1_v0_apply, val_main_call1_cst_apply, eb]
  simp only [el, er, hidden0_apply, Ideal.addf_def, Ideal.maximumf_def, Ideal.ofBits_def]
  rfl

/-- The first affine map and `relu` of the second layer, at a node and a hidden feature: its input row is the
    first layer's output row plus that output's neighbour sums. -/
theorem hidden1a_apply (p : Fin 8192) (k : Fin 256) :
    val_main_v40 (F := Ideal) x0 x1 x2 x3 x4 x5 x6 x7 (ix2 p k) =
      Cert.Gin.act (Cert.Gin.lin (fun l => val_main_v24 (F := Ideal) x0 x1 x2 x3 x4 x5 (ix2 p l)
        + nbr1 (val_main_v24 (F := Ideal) x0 x1 x2 x3 x4 x5) x1 (ix2 p l)) x6 (Cert.Gin.v1 x7)) k := by
  have el : ∀ l : Fin 256, lidx_main_v36 (ix2 p k) l = ix2 p l := fun l =>
    funext fun a => Fin.ext (by match a with | ⟨0, _⟩ => rfl | ⟨1, _⟩ => rfl)
  have er : ∀ l : Fin 256, ridx_main_v36 (ix2 p k) l = ix2 l k := fun l =>
    funext fun a => Fin.ext (by match a with | ⟨0, _⟩ => rfl | ⟨1, _⟩ => rfl)
  have eb : idx_main_v37 (idx_main_v38 (ix2 p k)) = ix1 k :=
    funext fun a => Fin.ext (by match a with | ⟨0, _⟩ => rfl)
  rw [val_main_v40_apply, val_main_v39_apply, val_main_v36_apply, val_main_v38_apply, val_main_v37_apply,
    val_main_call2_v0_apply, val_main_call2_cst_apply, eb]
  simp only [el, er, val_main_v35_apply, v34_eq, Ideal.addf_def, Ideal.maximumf_def, Ideal.ofBits_def]
  rfl

/-- The second affine map and `relu` of the second layer, at a node and a hidden feature. -/
theorem hidden1b_apply (p : Fin 8192) (k : Fin 256) :
    val_main_v45 (F := Ideal) x0 x1 x2 x3 x4 x5 x6 x7 x8 x9 (ix2 p k) =
      Cert.Gin.act (Cert.Gin.lin (fun l => val_main_v40 (F := Ideal) x0 x1 x2 x3 x4 x5 x6 x7 (ix2 p l)) x8 (Cert.Gin.v1 x9)) k := by
  have el : ∀ l : Fin 256, lidx_main_v41 (ix2 p k) l = ix2 p l := fun l =>
    funext fun a => Fin.ext (by match a with | ⟨0, _⟩ => rfl | ⟨1, _⟩ => rfl)
  have er : ∀ l : Fin 256, ridx_main_v41 (ix2 p k) l = ix2 l k := fun l =>
    funext fun a => Fin.ext (by match a with | ⟨0, _⟩ => rfl | ⟨1, _⟩ => rfl)
  have eb : idx_main_v42 (idx_main_v43 (ix2 p k)) = ix1 k :=
    funext fun a => Fin.ext (by match a with | ⟨0, _⟩ => rfl)
  rw [val_main_v45_apply, val_main_v44_apply, val_main_v41_apply, val_main_v43_apply, val_main_v42_apply,
    val_main_call3_v0_apply, val_main_call3_cst_apply, eb]
  simp only [el, er, Ideal.addf_def, Ideal.maximumf_def, Ideal.ofBits_def]
  rfl

/-- The reference's second layer is `Cert.Gin.L1` of the first layer's output and its neighbour sums. -/
theorem layer1_eq :
    val_main_v49 (F := Ideal) x0 x1 x2 x3 x4 x5 x6 x7 x8 x9 x10 x11 =
      Cert.Gin.L1 (val_main_v24 (F := Ideal) x0 x1 x2 x3 x4 x5) (nbr1 (val_main_v24 (F := Ideal) x0 x1 x2 x3 x4 x5) x1)
        x6 (Cert.Gin.v1 x7) x8 (Cert.Gin.v1 x9) x10 (Cert.Gin.v1 x11) := by
  funext i
  obtain ⟨p, q, rfl⟩ : ∃ (p : Fin 8192) (q : Fin 256), i = ix2 p q := ⟨i 0, i 1, eq_ix2 i⟩
  have el : ∀ k : Fin 256, lidx_main_v46 (ix2 p q) k = ix2 p k := fun k =>
    funext fun a => Fin.ext (by match a with | ⟨0, _⟩ => rfl | ⟨1, _⟩ => rfl)
  have er : ∀ k : Fin 256, ridx_main_v46 (ix2 p q) k = ix2 k q := fun k =>
    funext fun a => Fin.ext (by match a with | ⟨0, _⟩ => rfl | ⟨1, _⟩ => rfl)
  have eb : idx_main_v47 (idx_main_v48 (ix2 p q)) = ix1 q :=
    funext fun a => Fin.ext (by match a with | ⟨0, _⟩ => rfl)
  rw [Cert.Gin.L1_apply, val_main_v49_apply, val_main_v46_apply, val_main_v48_apply, val_main_v47_apply, eb]
  simp only [el, er, hidden1b_apply, hidden1a_apply, Ideal.addf_def]
  rfl

/-- The first 256 rows of the edge weight column are the left weights. -/
theorem wlo_apply (a : Fin 8192) (k : Fin 256) :
    val_main_v50 (F := Ideal) x12 (ridx_main_v51 (ix2 a 0) k) = Cert.Gin.wlo x12 k := by
  rw [val_main_v50_apply]
  unfold Cert.Gin.wlo
  exact congrArg x12 (funext fun d => Fin.ext (by match d with | ⟨0, _⟩ => rfl | ⟨1, _⟩ => rfl))

/-- The last 256 rows of the edge weight column are the right weights: row `256 + k` is row `k + 256`. -/
theorem whi_apply (a : Fin 8192) (k : Fin 256) :
    val_main_v52 (F := Ideal) x12 (ridx_main_v53 (ix2 a 0) k) = Cert.Gin.whi x12 k := by
  rw [val_main_v52_apply]
  unfold Cert.Gin.whi
  exact congrArg x12 (funext fun d => Fin.ext (by match d with | ⟨0, _⟩ => exact Nat.add_comm _ _ | ⟨1, _⟩ => rfl))

/-- The bias reshaped to a scalar is its one entry: both arrays have one index, at row-major position 0. -/
theorem bias_apply (j : S_.Idx) : val_main_v58 (F := Ideal) x13 j = x13 (ix1 0) := by
  unfold val_main_v58
  refine shapeCast_apply x13 shapeCasts_S1_S_ j (ix1 0) ?_
  rw [Shape.rowMajor_val_one]
  exact (Shape.rowMajorPi_zero _ _).symm

/-- The reference's result is the edge scores `Cert.Gin.Sc` of its second layer's output. -/
theorem score_eq :
    val_main_v60 (F := Ideal) x0 x1 x2 x3 x4 x5 x6 x7 x8 x9 x10 x11 x12 x13 =
      Cert.Gin.Sc (val_main_v49 (F := Ideal) x0 x1 x2 x3 x4 x5 x6 x7 x8 x9 x10 x11) (Cert.Gin.wlo x12) (Cert.Gin.whi x12) (x13 (ix1 0)) := by
  funext ij
  obtain ⟨i, j, rfl⟩ : ∃ (i j : Fin 8192), ij = ix2 i j := ⟨ij 0, ij 1, eq_ix2 ij⟩
  have ei : idx_main_v55 (ix2 i j) = ix2 i 0 :=
    funext fun a => Fin.ext (by match a with | ⟨0, _⟩ => rfl | ⟨1, _⟩ => rfl)
  have ej : idx_main_v54 (idx_main_v56 (ix2 i j)) = ix2 j 0 :=
    funext fun a => Fin.ext (by match a with | ⟨0, _⟩ => rfl | ⟨1, _⟩ => rfl)
  have eli : ∀ k : Fin 256, lidx_main_v51 (ix2 i 0) k = ix2 i k := fun k =>
    funext fun a => Fin.ext (by match a with | ⟨0, _⟩ => rfl | ⟨1, _⟩ => rfl)
  have elj : ∀ k : Fin 256, lidx_main_v53 (ix2 j 0) k = ix2 j k := fun k =>
    funext fun a => Fin.ext (by match a with | ⟨0, _⟩ => rfl | ⟨1, _⟩ => rfl)
  rw [Cert.Gin.Sc_apply, val_main_v60_apply, val_main_v57_apply, val_main_v55_apply, val_main_v56_apply,
    val_main_v54_apply, val_main_v59_apply, bias_apply, ei, ej, val_main_v51_apply, val_main_v53_apply]
  simp only [eli, elj, wlo_apply, whi_apply, Ideal.addf_def]

/-- The reference's result as the whole computation of its arguments. -/
theorem total_eq :
    val_main_v60 (F := Ideal) x0 x1 x2 x3 x4 x5 x6 x7 x8 x9 x10 x11 x12 x13 =
      Cert.Gin.Total (fun x => nbr0 x x1) (fun y => nbr1 y x1) x0 x2 x3 x4 x5 x6 x7 x8 x9 x10 x11 x12 x13 := by
  unfold Cert.Gin.Total
  rw [score_eq, layer1_eq, layer0_eq]

end Cert.ReferenceIdeal.RefValue

end
-- ==== Proof.lean ====
/-
  The claim: a three-kernel program for two graph-network layers and an all-pairs edge score, against its plain
  reference, over the extended reals.

  Both programs take node features `x`, an edge list, five weight matrices with their biases, and the edge weights.
  Each layer sends node `i` to an affine-relu-affine map of `x i` plus the sum of `x` over the neighbours of `i`
  (the neighbour sums are ONE gather and ONE scatter-add along the edge list, spelt identically in both programs and
  carried as a function that is never opened); the second layer ends with one more affine map; the score of the pair
  `(i, j)` is `Z i · w[0:256] + Z j · w[256:512] + b`.  The kernels compute the layers on eight blocks of 1024 rows
  (each row of a layer depends on the same row of its inputs only) and the scores on an 8 × 8 grid of square blocks,
  the second term from the transposed features with the weights as the LEFT factor: commutativity of the product is the
  one algebraic law between the two sides.  Changes of float format are the identity at the extended reals, and the
  zero of `relu` is the same word on both sides, so no input needs to be finite.

  The three frames are the generated ones (the reference's is its run with the result dropped); the idealization
  rewrote nothing; the value claim pairs the kernel program's run (Proof/KValue.lean) with the reference's run read
  stage by stage (Proof/RefSpec.lean), both at the specification `Cert.Gin.Total` (Proof/Spec.lean).
-/
import proofs.«171657_j76184129896629_1_alg».proof.Defs
import proofs.«171657_j76184129896629_1_alg».proof.Proof.Gen.Kernel
import proofs.«171657_j76184129896629_1_alg».proof.Proof.Gen.Kernel.Skeleton
import proofs.«171657_j76184129896629_1_alg».proof.Proof.Gen.Kernel.Launch
import proofs.«171657_j76184129896629_1_alg».proof.Proof.Gen.Kernel.Points
import proofs.«171657_j76184129896629_1_alg».proof.Proof.Gen.Kernel.Frame
import proofs.«171657_j76184129896629_1_alg».proof.Proof.Gen.KernelIdeal
import proofs.«171657_j76184129896629_1_alg».proof.Proof.Gen.KernelIdeal.Skeleton
import proofs.«171657_j76184129896629_1_alg».proof.Proof.Gen.KernelIdeal.Launch
import proofs.«171657_j76184129896629_1_alg».proof.Proof.Gen.KernelIdeal.Points
import proofs.«171657_j76184129896629_1_alg».proof.Proof.Gen.KernelIdeal.Frame
import proofs.«171657_j76184129896629_1_alg».proof.Proof.Gen.ReferenceIdeal
import proofs.«171657_j76184129896629_1_alg».proof.Proof.Gen.Pre_finite_inputs
import proofs.«171657_j76184129896629_1_alg».proof.Proof.Gen.ReferenceIdeal.Run
import proofs.«171657_j76184129896629_1_alg».proof.Proof.Gen.ReferenceIdeal.Read
import proofs.«171657_j76184129896629_1_alg».proof.Proof.KValue
import proofs.«171657_j76184129896629_1_alg».proof.Proof.RefSpec
import Idealize.ShloMosaic.Adequacy
import Idealize.ShloMosaic.Init

set_option maxRecDepth 16384

noncomputable section

namespace Cert.Proof

open Idealize.ShloMosaic Idealize.ShloMosaic.TcCoe Idealize.SL.Sem

/-! ## The two programs' neighbour sums are one function -/

/-- The first layer's neighbour sums: the same gather and scatter-add of the same slices of the edge list. -/
theorem nbr0_eq (x : Cert.Gin.Mat 8192 128) (e : (⟨Cert.KernelIdeal.S2x131072, .i32⟩ : BufTy).Contents (Elt Ideal)) :
    Cert.ReferenceIdeal.RefValue.nbr0 x e = Cert.KernelIdeal.Host.nbrK0 x e := by
  unfold Cert.ReferenceIdeal.RefValue.nbr0 Cert.KernelIdeal.Host.nbrK0 Cert.KernelIdeal.Host.dstIdx Cert.KernelIdeal.Host.srcIdx
    Cert.KernelIdeal.Host.srcRow Cert.KernelIdeal.Host.dstRow
    Cert.ReferenceIdeal.Read.val_main_v13 Cert.ReferenceIdeal.Read.val_main_v12 Cert.ReferenceIdeal.Read.val_main_v11
    Cert.ReferenceIdeal.Read.val_main_v10 Cert.ReferenceIdeal.Read.val_main_v9 Cert.ReferenceIdeal.Read.val_main_v8
    Cert.ReferenceIdeal.Read.val_main_v7 Cert.ReferenceIdeal.Read.val_main_v6 Cert.ReferenceIdeal.Read.val_main_v5
    Cert.ReferenceIdeal.Read.val_main_v4 Cert.ReferenceIdeal.Read.val_main_v3 Cert.ReferenceIdeal.Read.val_main_v2
    Cert.ReferenceIdeal.Read.val_main_v1 Cert.ReferenceIdeal.Read.val_main_v0 Cert.ReferenceIdeal.Read.val_main_c
    Cert.ReferenceIdeal.Read.val_main_c_0 Cert.ReferenceIdeal.Read.val_main_cst
  rfl

/-- The second layer's neighbour sums likewise. -/
theorem nbr1_eq (y : Cert.Gin.Mat 8192 256) (e : (⟨Cert.KernelIdeal.S2x131072, .i32⟩ : BufTy).Contents (Elt Ideal)) :
    Cert.ReferenceIdeal.RefValue.nbr1 y e = Cert.KernelIdeal.Host.nbrK1 y e := by
  unfold Cert.ReferenceIdeal.RefValue.nbr1 Cert.KernelIdeal.Host.nbrK1 Cert.KernelIdeal.Host.dstIdx Cert.KernelIdeal.Host.srcIdx
    Cert.KernelIdeal.Host.srcRow Cert.KernelIdeal.Host.dstRow
    Cert.ReferenceIdeal.Read.val_main_v33 Cert.ReferenceIdeal.Read.val_main_v32
    Cert.ReferenceIdeal.Read.val_main_v30 Cert.ReferenceIdeal.Read.val_main_v29 Cert.ReferenceIdeal.Read.val_main_v28
    Cert.ReferenceIdeal.Read.val_main_v27 Cert.ReferenceIdeal.Read.val_main_v26 Cert.ReferenceIdeal.Read.val_main_v25
    Cert.ReferenceIdeal.Read.val_main_v3 Cert.ReferenceIdeal.Read.val_main_v2
    Cert.ReferenceIdeal.Read.val_main_v1 Cert.ReferenceIdeal.Read.val_main_v0 Cert.ReferenceIdeal.Read.val_main_c_1
    Cert.ReferenceIdeal.Read.val_main_c_2 Cert.ReferenceIdeal.Read.val_main_cst_3
  rfl

/-! ## The claims -/

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result at `Cert.Gin.Total` of the arguments: the kernel program by its run read region by
    region, the reference by its stages; the arguments agree, and the neighbour sums are one function. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13⟩ := hagree c
  rw [Cert.ReferenceIdeal.Read.val_main_v60_eq, Cert.ReferenceIdeal.RefValue.total_eq,
    h0, h1, h2, h3, h4, h5, h6, h7, h8, h9, h10, h11, h12, h13]
  unfold Cert.KernelIdeal.KValue.result
  have e0 : (fun x : Cert.Gin.Mat 8192 128 => Cert.ReferenceIdeal.RefValue.nbr0 x (m ((c.tc : Thread Cert.KernelIdeal.nD Cert.KernelIdeal.τ).loc Cert.KernelIdeal.main_arg1)))
      = fun x => Cert.KernelIdeal.Host.nbrK0 x (m ((c.tc : Thread Cert.KernelIdeal.nD Cert.KernelIdeal.τ).loc Cert.KernelIdeal.main_arg1)) := funext fun x => nbr0_eq x _
  have e1 : (fun y : Cert.Gin.Mat 8192 256 => Cert.ReferenceIdeal.RefValue.nbr1 y (m ((c.tc : Thread Cert.KernelIdeal.nD Cert.KernelIdeal.τ).loc Cert.KernelIdeal.main_arg1)))
      = fun y => Cert.KernelIdeal.Host.nbrK1 y (m ((c.tc : Thread Cert.KernelIdeal.nD Cert.KernelIdeal.τ).loc Cert.KernelIdeal.main_arg1)) := funext fun y => nbr1_eq y _
  exact congrArg₂ (fun n0 n1 => Cert.Gin.Total n0 n1 (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) e0 e1

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
